-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S128x512x16 : Shape := ⟨3, ![128, 512, 16]⟩
abbrev S_ : Shape := ⟨0, ![]⟩

class Facts : Prop where
  bcast_S_S128x512x16 : S_.BroadcastsInDim S128x512x16 (![] : Fin 0 → Fin S128x512x16.rank)

variable [Facts]

def fn {F : FTy → Type} [FloatOps F] (main_arg0 : IVec S128x512x16 32) (main_arg1 : IVec S128x512x16 32) : IVec S128x512x16 1 :=
  let main_c : IVec S_ 32 := constantI S_ 32 0#32
  let main_v0 : IVec S128x512x16 32 := broadcastInDim S128x512x16 ![] bcast_S_S128x512x16 main_c
  let main_v1 : IVec S128x512x16 1 := cmpi .sge main_arg0 main_v0
  let main_c_0 : IVec S_ 32 := constantI S_ 32 512#32
  let main_v2 : IVec S128x512x16 32 := broadcastInDim S128x512x16 ![] bcast_S_S128x512x16 main_c_0
  let main_v3 : IVec S128x512x16 1 := cmpi .slt main_arg0 main_v2
  let main_v4 : IVec S128x512x16 1 := andi main_v1 main_v3
  let main_c_1 : IVec S_ 32 := constantI S_ 32 0#32
  let main_v5 : IVec S128x512x16 32 := broadcastInDim S128x512x16 ![] bcast_S_S128x512x16 main_c_1
  let main_v6 : IVec S128x512x16 1 := cmpi .sge main_arg1 main_v5
  let main_v7 : IVec S128x512x16 1 := andi main_v4 main_v6
  let main_c_2 : IVec S_ 32 := constantI S_ 32 16#32
  let main_v8 : IVec S128x512x16 32 := broadcastInDim S128x512x16 ![] bcast_S_S128x512x16 main_c_2
  let main_v9 : IVec S128x512x16 1 := cmpi .slt main_arg1 main_v8
  let main_v10 : IVec S128x512x16 1 := andi main_v7 main_v9
  main_v10
-- ==== Kernel.lean ====
abbrev S128x512x16 : Shape := ⟨3, ![128, 512, 16]⟩
abbrev S65536x16 : Shape := ⟨2, ![65536, 16]⟩
abbrev S65536x528 : Shape := ⟨2, ![65536, 528]⟩
abbrev S1024x16 : Shape := ⟨2, ![1024, 16]⟩
abbrev S1024x528 : Shape := ⟨2, ![1024, 528]⟩
abbrev S1024x512 : Shape := ⟨2, ![1024, 512]⟩
abbrev S1024x1 : Shape := ⟨2, ![1024, 1]⟩
abbrev S128x512x528 : Shape := ⟨3, ![128, 512, 528]⟩

abbrev nBuf : Space → Nat
  | .hbm => 6
  | .vmem => 6
  | .smem => 0
  | _ => 0

abbrev bufTy : (tb : Table) → Fin (tcTables nBuf tb) → BufTy
  | .hbm, ⟨0, _⟩ => ⟨S128x512x16, .i32⟩
  | .hbm, ⟨1, _⟩ => ⟨S128x512x16, .i32⟩
  | .hbm, ⟨2, _⟩ => ⟨S65536x16, .i32⟩
  | .hbm, ⟨3, _⟩ => ⟨S65536x16, .i32⟩
  | .hbm, ⟨4, _⟩ => ⟨S65536x528, .f32⟩
  | .hbm, ⟨5, _⟩ => ⟨S128x512x528, .f32⟩
  | .local _ .vmem, ⟨0, _⟩ => ⟨S1024x16, .i32⟩
  | .local _ .vmem, ⟨1, _⟩ => ⟨S1024x16, .i32⟩
  | .local _ .vmem, ⟨2, _⟩ => ⟨S1024x16, .i32⟩
  | .local _ .vmem, ⟨3, _⟩ => ⟨S1024x16, .i32⟩
  | .local _ .vmem, ⟨4, _⟩ => ⟨S1024x528, .f32⟩
  | .local _ .vmem, ⟨5, _⟩ => ⟨S1024x528, .f32⟩
  | _, _ => ⟨S128x512x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x16 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x16 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x528 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S128x512x16_S65536x16 : S128x512x16.ShapeCasts S65536x16
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  iota_S1024x512_d1_w32 : S1024x512.Iotas .tc 32 [1]
  iota_S1024x16_d1_w32 : S1024x16.Iotas .tc 32 [1]
  slices_S1024x16_o0_0_S1024x1 : S1024x16.Slices ![0, 0] S1024x1
  broadcasts_S1024x1_S1024x512 : S1024x1.Broadcasts S1024x512
  natLt_1_32 : 1 < 32
  broadcasts_S1024x1_S1024x16 : S1024x1.Broadcasts S1024x16
  slices_S1024x16_o0_1_S1024x1 : S1024x16.Slices ![0, 1] S1024x1
  slices_S1024x16_o0_2_S1024x1 : S1024x16.Slices ![0, 2] S1024x1
  slices_S1024x16_o0_3_S1024x1 : S1024x16.Slices ![0, 3] S1024x1
  slices_S1024x16_o0_4_S1024x1 : S1024x16.Slices ![0, 4] S1024x1
  slices_S1024x16_o0_5_S1024x1 : S1024x16.Slices ![0, 5] S1024x1
  slices_S1024x16_o0_6_S1024x1 : S1024x16.Slices ![0, 6] S1024x1
  slices_S1024x16_o0_7_S1024x1 : S1024x16.Slices ![0, 7] S1024x1
  slices_S1024x16_o0_8_S1024x1 : S1024x16.Slices ![0, 8] S1024x1
  slices_S1024x16_o0_9_S1024x1 : S1024x16.Slices ![0, 9] S1024x1
  slices_S1024x16_o0_10_S1024x1 : S1024x16.Slices ![0, 10] S1024x1
  slices_S1024x16_o0_11_S1024x1 : S1024x16.Slices ![0, 11] S1024x1
  slices_S1024x16_o0_12_S1024x1 : S1024x16.Slices ![0, 12] S1024x1
  slices_S1024x16_o0_13_S1024x1 : S1024x16.Slices ![0, 13] S1024x1
  slices_S1024x16_o0_14_S1024x1 : S1024x16.Slices ![0, 14] S1024x1
  slices_S1024x16_o0_15_S1024x1 : S1024x16.Slices ![0, 15] S1024x1
  inb_S1024x528_S1024x512_0_0 : ∀ a, (![0, 0] : Fin 2 → Nat) a + S1024x512.size a ≤ S1024x528.size a
  h_S1024x512 : 0 < S1024x512.numel
  inb_S1024x528_S1024x16_0_512 : ∀ a, (![0, 512] : Fin 2 → Nat) a + S1024x16.size a ≤ S1024x528.size a
  shapeCasts_S65536x528_S128x512x528 : S65536x528.ShapeCasts S128x512x528
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x16.size a ≤ S65536x16.size a
  hwx0_0 : ∀ i : grid0.Coords, EltTy.bits .i32 = 32 ∨ (Rect.block (s := S65536x16) S1024x16.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S65536x16.size a
  hwx0_1 : ∀ i : grid0.Coords, EltTy.bits .i32 = 32 ∨ (Rect.block (s := S65536x16) S1024x16.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x528.size a ≤ S65536x528.size a
  hwx0_2 : ∀ i : grid0.Coords, EltTy.bits .f32 = 32 ∨ (Rect.block (s := S65536x528) S1024x528.size (cc0_transform_2 i) (hinb0_2 i)).WholeWords (EltTy.packing .f32)

variable [Facts₀]

abbrev win0_0 : Pipeline.Window sig grid0 :=
  Pipeline.Window.ofSpec (Memref.whole main_v0) S1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x528.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x512x16 : Shape := ⟨3, ![128, 512, 16]⟩
abbrev S65536x16 : Shape := ⟨2, ![65536, 16]⟩
abbrev S_ : Shape := ⟨0, ![]⟩
abbrev S65536 : Shape := ⟨1, ![65536]⟩
abbrev S65536x1 : Shape := ⟨2, ![65536, 1]⟩
abbrev S65536x528 : Shape := ⟨2, ![65536, 528]⟩
abbrev S65536x16x1 : Shape := ⟨3, ![65536, 16, 1]⟩
abbrev S65536x16x2 : Shape := ⟨3, ![65536, 16, 2]⟩
abbrev S128x512x528 : Shape := ⟨3, ![128, 512, 528]⟩

abbrev nBuf : Space → Nat
  | .hbm => 53
  | .vmem => 0
  | .smem => 0
  | _ => 0

abbrev bufTy : (tb : Table) → Fin (tcTables nBuf tb) → BufTy
  | .hbm, ⟨0, _⟩ => ⟨S128x512x16, .i32⟩
  | .hbm, ⟨1, _⟩ => ⟨S128x512x16, .i32⟩
  | .hbm, ⟨2, _⟩ => ⟨S65536x16, .i32⟩
  | .hbm, ⟨3, _⟩ => ⟨S65536x16, .i32⟩
  | .hbm, ⟨4, _⟩ => ⟨S_, .i32⟩
  | .hbm, ⟨5, _⟩ => ⟨S65536x16, .i32⟩
  | .hbm, ⟨6, _⟩ => ⟨S65536x16, .i1⟩
  | .hbm, ⟨7, _⟩ => ⟨S65536x16, .f32⟩
  | .hbm, ⟨8, _⟩ => ⟨S65536, .i32⟩
  | .hbm, ⟨9, _⟩ => ⟨S65536x1, .i32⟩
  | .hbm, ⟨10, _⟩ => ⟨S65536x16, .i32⟩
  | .hbm, ⟨11, _⟩ => ⟨S_, .f32⟩
  | .hbm, ⟨12, _⟩ => ⟨S65536x528, .f32⟩
  | .hbm, ⟨13, _⟩ => ⟨S_, .i32⟩
  | .hbm, ⟨14, _⟩ => ⟨S65536x16, .i32⟩
  | .hbm, ⟨15, _⟩ => ⟨S65536x16, .i1⟩
  | .hbm, ⟨16, _⟩ => ⟨S_, .i32⟩
  | .hbm, ⟨17, _⟩ => ⟨S65536x16, .i32⟩
  | .hbm, ⟨18, _⟩ => ⟨S65536x16, .i32⟩
  | .hbm, ⟨19, _⟩ => ⟨S65536x16, .i32⟩
  | .hbm, ⟨20, _⟩ => ⟨S_, .i32⟩
  | .hbm, ⟨21, _⟩ => ⟨S65536x16, .i32⟩
  | .hbm, ⟨22, _⟩ => ⟨S65536x16, .i1⟩
  | .hbm, ⟨23, _⟩ => ⟨S_, .i32⟩
  | .hbm, ⟨24, _⟩ => ⟨S65536x16, .i32⟩
  | .hbm, ⟨25, _⟩ => ⟨S65536x16, .i32⟩
  | .hbm, ⟨26, _⟩ => ⟨S65536x16, .i32⟩
  | .hbm, ⟨27, _⟩ => ⟨S65536x16x1, .i32⟩
  | .hbm, ⟨28, _⟩ => ⟨S65536x16x1, .i32⟩
  | .hbm, ⟨29, _⟩ => ⟨S65536x16x2, .i32⟩
  | .hbm, ⟨30, _⟩ => ⟨S65536x528, .f32⟩
  | .hbm, ⟨31, _⟩ => ⟨S_, .i32⟩
  | .hbm, ⟨32, _⟩ => ⟨S65536x16, .i32⟩
  | .hbm, ⟨33, _⟩ => ⟨S65536x16, .i32⟩
  | .hbm, ⟨34, _⟩ => ⟨S_, .i32⟩
  | .hbm, ⟨35, _⟩ => ⟨S65536x16, .i32⟩
  | .hbm, ⟨36, _⟩ => ⟨S65536x16, .i1⟩
  | .hbm, ⟨37, _⟩ => ⟨S_, .i32⟩
  | .hbm, ⟨38, _⟩ => ⟨S65536x16, .i32⟩
  | .hbm, ⟨39, _⟩ => ⟨S65536x16, .i32⟩
  | .hbm, ⟨40, _⟩ => ⟨S65536x16, .i32⟩
  | .hbm, ⟨41, _⟩ => ⟨S_, .i32⟩
  | .hbm, ⟨42, _⟩ => ⟨S65536x16, .i32⟩
  | .hbm, ⟨43, _⟩ => ⟨S65536x16, .i1⟩
  | .hbm, ⟨44, _⟩ => ⟨S_, .i32⟩
  | .hbm, ⟨45, _⟩ => ⟨S65536x16, .i32⟩
  | .hbm, ⟨46, _⟩ => ⟨S65536x16, .i32⟩
  | .hbm, ⟨47, _⟩ => ⟨S65536x16, .i32⟩
  | .hbm, ⟨48, _⟩ => ⟨S65536x16x1, .i32⟩
  | .hbm, ⟨49, _⟩ => ⟨S65536x16x1, .i32⟩
  | .hbm, ⟨50, _⟩ => ⟨S65536x16x2, .i32⟩
  | .hbm, ⟨51, _⟩ => ⟨S65536x528, .f32⟩
  | .hbm, ⟨52, _⟩ => ⟨S128x512x528, .f32⟩
  | _, _ => ⟨S128x512x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_4 : Ref sig .tc := ⟨.hbm, 31, rfl⟩
abbrev main_v23 : Ref sig .tc := ⟨.hbm, 32, rfl⟩
abbrev main_v24 : Ref sig .tc := ⟨.hbm, 33, rfl⟩
abbrev main_c_5 : Ref sig .tc := ⟨.hbm, 34, rfl⟩
abbrev main_v25 : Ref sig .tc := ⟨.hbm, 35, rfl⟩
abbrev main_v26 : Ref sig .tc := ⟨.hbm, 36, rfl⟩
abbrev main_c_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_7 : Ref sig .tc := ⟨.hbm, 41, rfl⟩
abbrev main_v30 : Ref sig .tc := ⟨.hbm, 42, rfl⟩
abbrev main_v31 : Ref sig .tc := ⟨.hbm, 43, rfl⟩
abbrev main_c_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]

class Facts₀ : Prop where
  shapeCasts_S128x512x16_S65536x16 : S128x512x16.ShapeCasts S65536x16
  bcast_S_S65536x16 : S_.BroadcastsInDim S65536x16 (![] : Fin 0 → Fin S65536x16.rank)
  bcast_S65536_S65536x1_0 : S65536.BroadcastsInDim S65536x1 (![0] : Fin 1 → Fin S65536x1.rank)
  bcast_S65536x1_S65536x16_0_1 : S65536x1.BroadcastsInDim S65536x16 (![0, 1] : Fin 2 → Fin S65536x16.rank)
  bcast_S_S65536x528 : S_.BroadcastsInDim S65536x528 (![] : Fin 0 → Fin S65536x528.rank)
  bcast_S65536x16_S65536x16x1_0_1 : S65536x16.BroadcastsInDim S65536x16x1 (![0, 1] : Fin 2 → Fin S65536x16x1.rank)
  concatenates_S65536x16x1_S65536x16x1_S65536x16x2_d2 : Shape.Concatenates [S65536x16x1, S65536x16x1] S65536x16x2 2
  shapeCasts_S65536x528_S128x512x528 : S65536x528.ShapeCasts S128x512x528
  scatter_S65536x528_S65536x16x2_S65536x16_n_01_01_2_wf : ScatterDims.WF S65536x528 S65536x16x2 S65536x16 [] [0, 1] [0, 1] 2

variable [Facts₀]

def scatter_S65536x528_S65536x16x2_S65536x16_n_01_01_2 : ScatterDims S65536x528 S65536x16x2 S65536x16 where
  updateWindowDims := []
  insertedWindowDims := [0, 1]
  scatterDimsToOperandDims := [0, 1]
  indexVectorDim := 2
  wf := scatter_S65536x528_S65536x16x2_S65536x16_n_01_01_2_wf

class Facts : Prop extends Facts₀ where

variable [Facts]
-- ==== Proof.Hist.lean ====
/-
  THE HISTOGRAM both programs compute, as one function of the two id tables.

  A table of token words and a table of position words, both [R × 16]: row r holds the 16 characters of word r. The
  result is [R × 528]: columns 0 … 511 count, for each token value j, the characters of the row whose token is j;
  columns 512 … 527 count, for each position value p, the characters of the row whose position is p. A character
  whose token is the padding value 0 is counted in NEITHER block. Every count is a sum of sixteen terms, each the
  extended real 1 or 0; no product, no cancellation, so nothing here needs an order of summation or finiteness.

  `InRange`: every token word is one of the 512 token values and every position word one of the 16 position values
  (read unsigned, so in particular neither is negative).
-/
import Idealize.ShloMosaic.PureOps.Ideal
import Idealize.ShloMosaic.Lib.ValueIdx

noncomputable section

open scoped BigOperators

namespace Cert.Hist

open Idealize.ShloMosaic Idealize.ShloMosaic.ValueIdx

/-- Every token word is below 512 and every position word below 16, read unsigned. -/
def InRange {R : Nat} (tok pos : IVec ⟨2, ![R, 16]⟩ 32) : Prop :=
  ∀ (r : Fin R) (l : Fin 16), (tok (ix2 r l)).toNat < 512 ∧ (pos (ix2 r l)).toNat < 16

/-- Row r, column j < 512: the number of non-padding characters of row r whose token is j. -/
def tokCount {R : Nat} (tok : IVec ⟨2, ![R, 16]⟩ 32) (r : Fin R) (j : Nat) : EReal :=
  ∑ l : Fin 16, if tok (ix2 r l) ≠ 0#32 ∧ (tok (ix2 r l)).toNat = j then (1 : EReal) else 0

/-- Row r, position value p: the number of non-padding characters of row r whose position is p. -/
def posCount {R : Nat} (tok pos : IVec ⟨2, ![R, 16]⟩ 32) (r : Fin R) (p : Nat) : EReal :=
  ∑ l : Fin 16, if tok (ix2 r l) ≠ 0#32 ∧ (pos (ix2 r l)).toNat = p then (1 : EReal) else 0

/-- The two histograms side by side: the token counts in columns 0 … 511, the position counts in columns 512 … 527. -/
def hist {R : Nat} (tok pos : IVec ⟨2, ![R, 16]⟩ 32) : FVec Ideal ⟨2, ![R, 528]⟩ .f32 := fun i =>
  if (i 1).val < 512 then tokCount tok (i 0) (i 1).val else posCount tok pos (i 0) ((i 1).val - 512)

end Cert.Hist

end
-- ==== Proof.KernelPay.lean ====
/-
  The kernel body's two stored values read at one element, at the ideal instance.
-/
import proofs.«430972_j17334488007262_2_alg».proof.Proof.Gen.KernelIdeal.Skeleton
import proofs.«430972_j17334488007262_2_alg».proof.Proof.Hist
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-- One bit, widened to a word and read as a signed real, is 1 or 0. -/
private theorem bit_read (a b : BitVec 32) :
    FloatOps.sitofp (F := Ideal) .f32 ((IntOp.cmpi .eq a b).setWidth 32) = if a = b then (1 : EReal) else 0 := by
  by_cases h : a = b
  · have e : (IntOp.cmpi .eq a b).setWidth 32 = 1#32 := by simp [IntOp.cmpi, h]
    rw [e, if_pos h]
    show (((1#32 : BitVec 32).toInt : ℝ) : EReal) = 1
    have : (1#32 : BitVec 32).toInt = 1 := by decide
    rw [this]; norm_num
  · have hb : (a == b) = false := by simpa using h
    have e : (IntOp.cmpi .eq a b).setWidth 32 = 0#32 := by simp [IntOp.cmpi, hb]
    rw [e, if_neg h]
    show (((0#32 : BitVec 32).toInt : ℝ) : EReal) = 0
    have : (0#32 : BitVec 32).toInt = 0 := by decide
    rw [this]; norm_num

/-- One step of the token count: column l of the word table, spread over the 512 columns and compared with the column number, adds 1 at (p, q) exactly when the word at (p, l) is the number q. -/
private theorem tokStep (acc : FVec Ideal S1024x512 .f32) (v : IVec S1024x16 32) (l : Nat) (hl : l < 16)
    (hsl : S1024x16.Slices ![0, l] S1024x1) (p : Fin 1024) (q : Fin 512) :
    addf acc (sitofp (F := Ideal) .f32 (extui 32 (cmpi .eq (broadcastTo S1024x512 (extractStridedSlice S1024x1 ![0, l] v hsl) broadcasts_S1024x1_S1024x512) (iota .tc S1024x512 32 [1] iota_S1024x512_d1_w32)) natLt_1_32)) (ix2 p q)
    = acc (ix2 p q) + (if v (ix2 p ⟨l, hl⟩) = BitVec.ofNat 32 q.val then 1 else 0) := by
  rw [addf_apply, sitofp_apply, extui_apply]
  show acc (ix2 p q) + FloatOps.sitofp (F := Ideal) .f32 ((IntOp.cmpi .eq _ _).setWidth 32) = _
  rw [bit_read]
  have e1 : broadcastTo S1024x512 (extractStridedSlice S1024x1 ![0, l] v hsl) broadcasts_S1024x1_S1024x512 (ix2 p q)
      = v (ix2 p ⟨l, hl⟩) := by
    refine (broadcastTo_apply _ broadcasts_S1024x1_S1024x512 (ix2 p q) (ix2 p (0 : Fin 1)) fun ax => ?_).trans ?_
    · match ax with
      | ⟨0, _⟩ => rfl
      | ⟨1, _⟩ => rfl
    · exact slice2_axis1_apply l v hsl p (0 : Fin 1) ⟨l, hl⟩ rfl
  have e2 : iota .tc S1024x512 32 [1] iota_S1024x512_d1_w32 (ix2 p q) = BitVec.ofNat 32 q.val :=
    iota_single_apply .tc S1024x512 32 1 iota_S1024x512_d1_w32 (ix2 p q)
  rw [e1, e2]

/-- One step of the position count: the same over the 16 position values. -/
private theorem posStep (acc : FVec Ideal S1024x16 .f32) (v : IVec S1024x16 32) (l : Nat) (hl : l < 16)
    (hsl : S1024x16.Slices ![0, l] S1024x1) (p : Fin 1024) (q : Fin 16) :
    addf acc (sitofp (F := Ideal) .f32 (extui 32 (cmpi .eq (broadcastTo S1024x16 (extractStridedSlice S1024x1 ![0, l] v hsl) broadcasts_S1024x1_S1024x16) (iota .tc S1024x16 32 [1] iota_S1024x16_d1_w32)) natLt_1_32)) (ix2 p q)
    = acc (ix2 p q) + (if v (ix2 p ⟨l, hl⟩) = BitVec.ofNat 32 q.val then 1 else 0) := by
  rw [addf_apply, sitofp_apply, extui_apply]
  show acc (ix2 p q) + FloatOps.sitofp (F := Ideal) .f32 ((IntOp.cmpi .eq _ _).setWidth 32) = _
  rw [bit_read]
  have e1 : broadcastTo S1024x16 (extractStridedSlice S1024x1 ![0, l] v hsl) broadcasts_S1024x1_S1024x16 (ix2 p q)
      = v (ix2 p ⟨l, hl⟩) := by
    refine (broadcastTo_apply _ broadcasts_S1024x1_S1024x16 (ix2 p q) (ix2 p (0 : Fin 1)) fun ax => ?_).trans ?_
    · match ax with
      | ⟨0, _⟩ => rfl
      | ⟨1, _⟩ => rfl
    · exact slice2_axis1_apply l v hsl p (0 : Fin 1) ⟨l, hl⟩ rfl
  have e2 : iota .tc S1024x16 32 [1] iota_S1024x16_d1_w32 (ix2 p q) = BitVec.ofNat 32 q.val :=
    iota_single_apply .tc S1024x16 32 1 iota_S1024x16_d1_w32 (ix2 p q)
  rw [e1, e2]

/-- The token word with padding replaced by the all-ones word. -/
private theorem pay5_apply (x0 : Vec Ideal S1024x16 .i32) (i : S1024x16.Idx) :
    k0_pay5 (F := Ideal) x0 i = if x0 i = 0#32 then 4294967295#32 else x0 i := by
  unfold k0_pay5 k0_pay4 k0_pay3
  rw [shapeCast_self]
  show Scalar.select (IntOp.cmpi .eq (x0 i) 0#32) 4294967295#32 (x0 i) = _
  unfold Scalar.select
  by_cases h : x0 i = 0#32
  · have hc : IntOp.cmpi .eq (x0 i) 0#32 = 1 := StableHlo.Predicate.cmpi_eq_iff.mpr h
    rw [if_pos h, if_pos hc]
  · have hc : ¬ IntOp.cmpi .eq (x0 i) 0#32 = 1 := fun hc => h (StableHlo.Predicate.cmpi_eq_iff.mp hc)
    rw [if_neg h, if_neg hc]

/-- The position word with padding (of the TOKEN word) replaced by the all-ones word. -/
private theorem pay6_apply (x0 x1 : Vec Ideal S1024x16 .i32) (i : S1024x16.Idx) :
    k0_pay6 (F := Ideal) x0 x1 i = if x0 i = 0#32 then 4294967295#32 else x1 i := by
  unfold k0_pay6 k0_pay4 k0_pay3
  rw [shapeCast_self, shapeCast_self]
  show Scalar.select (IntOp.cmpi .eq (x0 i) 0#32) 4294967295#32 (x1 i) = _
  unfold Scalar.select
  by_cases h : x0 i = 0#32
  · have hc : IntOp.cmpi .eq (x0 i) 0#32 = 1 := StableHlo.Predicate.cmpi_eq_iff.mpr h
    rw [if_pos h, if_pos hc]
  · have hc : ¬ IntOp.cmpi .eq (x0 i) 0#32 = 1 := fun hc => h (StableHlo.Predicate.cmpi_eq_iff.mp hc)
    rw [if_neg h, if_neg hc]

/-- The all-ones word is no small number: a masked word equals a small number exactly when the mask is off and the word is that number. -/
private theorem word_eq_iff (t s : BitVec 32) (q : Nat) (hq : q < 512) :
    (if t = 0#32 then 4294967295#32 else s) = BitVec.ofNat 32 q ↔ t ≠ 0#32 ∧ s.toNat = q := by
  by_cases ht : t = 0#32
  · rw [if_pos ht]
    constructor
    · intro h
      have := congrArg BitVec.toNat h
      simp only [BitVec.toNat_ofNat] at this
      have h2 : (4294967295#32 : BitVec 32).toNat = 4294967295 := by decide
      omega
    · intro h; exact absurd ht h.1
  · rw [if_neg ht]
    constructor
    · intro h
      refine ⟨ht, ?_⟩
      rw [h, BitVec.toNat_ofNat]; omega
    · intro h
      apply BitVec.eq_of_toNat_eq
      rw [BitVec.toNat_ofNat, h.2]; omega

/-- A left-nested sum of sixteen terms from zero is the sum over the sixteen indices. -/
private theorem sum16 (f : Fin 16 → EReal) :
    0 + f ⟨0, by decide⟩ + f ⟨1, by decide⟩ + f ⟨2, by decide⟩ + f ⟨3, by decide⟩ + f ⟨4, by decide⟩ + f ⟨5, by decide⟩
      + f ⟨6, by decide⟩ + f ⟨7, by decide⟩ + f ⟨8, by decide⟩ + f ⟨9, by decide⟩ + f ⟨10, by decide⟩ + f ⟨11, by decide⟩
      + f ⟨12, by decide⟩ + f ⟨13, by decide⟩ + f ⟨14, by decide⟩ + f ⟨15, by decide⟩ = ∑ l : Fin 16, f l := by
  simp only [Fin.sum_univ_castSucc, Fin.sum_univ_zero]
  rfl

/-- Steps 0, 1, 2 of the token count, from zero. -/
private theorem pay7_apply (x0 : Vec Ideal S1024x16 .i32) (p : Fin 1024) (q : Fin 512) :
    k0_pay7 (F := Ideal) x0 (ix2 p q) =
      0 + (if k0_pay5 (F := Ideal) x0 (ix2 p ⟨0, by decide⟩) = BitVec.ofNat 32 q.val then (1 : EReal) else 0)
        + (if k0_pay5 (F := Ideal) x0 (ix2 p ⟨1, by decide⟩) = BitVec.ofNat 32 q.val then (1 : EReal) else 0)
        + (if k0_pay5 (F := Ideal) x0 (ix2 p ⟨2, by decide⟩) = BitVec.ofNat 32 q.val then (1 : EReal) else 0) := by
  unfold k0_pay7
  refine (tokStep _ _ 2 (by decide) _ p q).trans ?_
  rw [tokStep _ _ 1 (by decide) _ p q, tokStep _ _ 0 (by decide) _ p q, broadcast_apply]
  show Ideal.ofBits .f32 0x00000000#32 + _ + _ + _ = _
  rw [Ideal.ofBits_zero_f32]

/-- Steps 3 … 7 of the token count. -/
private theorem pay9_apply (v : IVec S1024x16 32) (acc : FVec Ideal S1024x512 .f32) (p : Fin 1024) (q : Fin 512) :
    k0_pay9 (F := Ideal) v (iota .tc S1024x512 32 [1] iota_S1024x512_d1_w32) acc (ix2 p q) =
      acc (ix2 p q)
        + (if v (ix2 p ⟨3, by decide⟩) = BitVec.ofNat 32 q.val then (1 : EReal) else 0)
        + (if v (ix2 p ⟨4, by decide⟩) = BitVec.ofNat 32 q.val then (1 : EReal) else 0)
        + (if v (ix2 p ⟨5, by decide⟩) = BitVec.ofNat 32 q.val then (1 : EReal) else 0)
        + (if v (ix2 p ⟨6, by decide⟩) = BitVec.ofNat 32 q.val then (1 : EReal) else 0)
        + (if v (ix2 p ⟨7, by decide⟩) = BitVec.ofNat 32 q.val then (1 : EReal) else 0) := by
  unfold k0_pay9
  refine (tokStep _ _ 7 (by decide) _ p q).trans ?_
  rw [tokStep _ _ 6 (by decide) _ p q, tokStep _ _ 5 (by decide) _ p q, tokStep _ _ 4 (by decide) _ p q,
    tokStep _ _ 3 (by decide) _ p q]

/-- Steps 8 … 12 of the token count. -/
private theorem pay11_apply (v : IVec S1024x16 32) (acc : FVec Ideal S1024x512 .f32) (p : Fin 1024) (q : Fin 512) :
    k0_pay11 (F := Ideal) v (iota .tc S1024x512 32 [1] iota_S1024x512_d1_w32) acc (ix2 p q) =
      acc (ix2 p q)
        + (if v (ix2 p ⟨8, by decide⟩) = BitVec.ofNat 32 q.val then (1 : EReal) else 0)
        + (if v (ix2 p ⟨9, by decide⟩) = BitVec.ofNat 32 q.val then (1 : EReal) else 0)
        + (if v (ix2 p ⟨10, by decide⟩) = BitVec.ofNat 32 q.val then (1 : EReal) else 0)
        + (if v (ix2 p ⟨11, by decide⟩) = BitVec.ofNat 32 q.val then (1 : EReal) else 0)
        + (if v (ix2 p ⟨12, by decide⟩) = BitVec.ofNat 32 q.val then (1 : EReal) else 0) := by
  unfold k0_pay11
  refine (tokStep _ _ 12 (by decide) _ p q).trans ?_
  rw [tokStep _ _ 11 (by decide) _ p q, tokStep _ _ 10 (by decide) _ p q, tokStep _ _ 9 (by decide) _ p q,
    tokStep _ _ 8 (by decide) _ p q]

/-- Steps 13, 14, 15 of the token count. -/
private theorem pay1_apply (v : IVec S1024x16 32) (acc : FVec Ideal S1024x512 .f32) (p : Fin 1024) (q : Fin 512) :
    k0_pay1 (F := Ideal) v (iota .tc S1024x512 32 [1] iota_S1024x512_d1_w32) acc (ix2 p q) =
      acc (ix2 p q)
        + (if v (ix2 p ⟨13, by decide⟩) = BitVec.ofNat 32 q.val then (1 : EReal) else 0)
        + (if v (ix2 p ⟨14, by decide⟩) = BitVec.ofNat 32 q.val then (1 : EReal) else 0)
        + (if v (ix2 p ⟨15, by decide⟩) = BitVec.ofNat 32 q.val then (1 : EReal) else 0) := by
  unfold k0_pay1
  refine (tokStep _ _ 15 (by decide) _ p q).trans ?_
  rw [tokStep _ _ 14 (by decide) _ p q, tokStep _ _ 13 (by decide) _ p q]

/-- One kernel-side token term is the reference's term. -/
private theorem tokTerm (x0 : Vec Ideal S1024x16 .i32) (p : Fin 1024) (q : Fin 512) (l : Fin 16) :
    (if k0_pay5 (F := Ideal) x0 (ix2 p l) = BitVec.ofNat 32 q.val then (1 : EReal) else 0)
      = if x0 (ix2 p l) ≠ 0#32 ∧ (x0 (ix2 p l)).toNat = q.val then (1 : EReal) else 0 := by
  rw [pay5_apply]
  exact if_congr (word_eq_iff _ _ q.val q.isLt) rfl rfl

/-- Steps 0, 1, 2 of the position count, from zero. -/
private theorem pay8_apply (x0 x1 : Vec Ideal S1024x16 .i32) (p : Fin 1024) (q : Fin 16) :
    k0_pay8 (F := Ideal) x0 x1 (ix2 p q) =
      0 + (if k0_pay6 (F := Ideal) x0 x1 (ix2 p ⟨0, by decide⟩) = BitVec.ofNat 32 q.val then (1 : EReal) else 0)
        + (if k0_pay6 (F := Ideal) x0 x1 (ix2 p ⟨1, by decide⟩) = BitVec.ofNat 32 q.val then (1 : EReal) else 0)
        + (if k0_pay6 (F := Ideal) x0 x1 (ix2 p ⟨2, by decide⟩) = BitVec.ofNat 32 q.val then (1 : EReal) else 0) := by
  unfold k0_pay8
  refine (posStep _ _ 2 (by decide) _ p q).trans ?_
  rw [posStep _ _ 1 (by decide) _ p q, posStep _ _ 0 (by decide) _ p q, broadcast_apply]
  show Ideal.ofBits .f32 0x00000000#32 + _ + _ + _ = _
  rw [Ideal.ofBits_zero_f32]

/-- Steps 3 … 7 of the position count. -/
private theorem pay10_apply (v : IVec S1024x16 32) (acc : FVec Ideal S1024x16 .f32) (p : Fin 1024) (q : Fin 16) :
    k0_pay10 (F := Ideal) v (iota .tc S1024x16 32 [1] iota_S1024x16_d1_w32) acc (ix2 p q) =
      acc (ix2 p q)
        + (if v (ix2 p ⟨3, by decide⟩) = BitVec.ofNat 32 q.val then (1 : EReal) else 0)
        + (if v (ix2 p ⟨4, by decide⟩) = BitVec.ofNat 32 q.val then (1 : EReal) else 0)
        + (if v (ix2 p ⟨5, by decide⟩) = BitVec.ofNat 32 q.val then (1 : EReal) else 0)
        + (if v (ix2 p ⟨6, by decide⟩) = BitVec.ofNat 32 q.val then (1 : EReal) else 0)
        + (if v (ix2 p ⟨7, by decide⟩) = BitVec.ofNat 32 q.val then (1 : EReal) else 0) := by
  unfold k0_pay10
  refine (posStep _ _ 7 (by decide) _ p q).trans ?_
  rw [posStep _ _ 6 (by decide) _ p q, posStep _ _ 5 (by decide) _ p q, posStep _ _ 4 (by decide) _ p q,
    posStep _ _ 3 (by decide) _ p q]

/-- Steps 8 … 12 of the position count. -/
private theorem pay12_apply (v : IVec S1024x16 32) (acc : FVec Ideal S1024x16 .f32) (p : Fin 1024) (q : Fin 16) :
    k0_pay12 (F := Ideal) v (iota .tc S1024x16 32 [1] iota_S1024x16_d1_w32) acc (ix2 p q) =
      acc (ix2 p q)
        + (if v (ix2 p ⟨8, by decide⟩) = BitVec.ofNat 32 q.val then (1 : EReal) else 0)
        + (if v (ix2 p ⟨9, by decide⟩) = BitVec.ofNat 32 q.val then (1 : EReal) else 0)
        + (if v (ix2 p ⟨10, by decide⟩) = BitVec.ofNat 32 q.val then (1 : EReal) else 0)
        + (if v (ix2 p ⟨11, by decide⟩) = BitVec.ofNat 32 q.val then (1 : EReal) else 0)
        + (if v (ix2 p ⟨12, by decide⟩) = BitVec.ofNat 32 q.val then (1 : EReal) else 0) := by
  unfold k0_pay12
  refine (posStep _ _ 12 (by decide) _ p q).trans ?_
  rw [posStep _ _ 11 (by decide) _ p q, posStep _ _ 10 (by decide) _ p q, posStep _ _ 9 (by decide) _ p q,
    posStep _ _ 8 (by decide) _ p q]

/-- Steps 13, 14, 15 of the position count. -/
private theorem pay2_apply (v : IVec S1024x16 32) (acc : FVec Ideal S1024x16 .f32) (p : Fin 1024) (q : Fin 16) :
    k0_pay2 (F := Ideal) v (iota .tc S1024x16 32 [1] iota_S1024x16_d1_w32) acc (ix2 p q) =
      acc (ix2 p q)
        + (if v (ix2 p ⟨13, by decide⟩) = BitVec.ofNat 32 q.val then (1 : EReal) else 0)
        + (if v (ix2 p ⟨14, by decide⟩) = BitVec.ofNat 32 q.val then (1 : EReal) else 0)
        + (if v (ix2 p ⟨15, by decide⟩) = BitVec.ofNat 32 q.val then (1 : EReal) else 0) := by
  unfold k0_pay2
  refine (posStep _ _ 15 (by decide) _ p q).trans ?_
  rw [posStep _ _ 14 (by decide) _ p q, posStep _ _ 13 (by decide) _ p q]

/-- One kernel-side position term is the reference's term. -/
private theorem posTerm (x0 x1 : Vec Ideal S1024x16 .i32) (p : Fin 1024) (q : Fin 16) (l : Fin 16) :
    (if k0_pay6 (F := Ideal) x0 x1 (ix2 p l) = BitVec.ofNat 32 q.val then (1 : EReal) else 0)
      = if x0 (ix2 p l) ≠ 0#32 ∧ (x1 (ix2 p l)).toNat = q.val then (1 : EReal) else 0 := by
  rw [pay6_apply]
  exact if_congr (word_eq_iff _ _ q.val (by have := q.isLt; omega)) rfl rfl

/-- The token accumulator the body stores into columns 0 … 511, at row p and column q. -/
theorem payTok_apply (x0 : Vec Ideal S1024x16 .i32) (p : Fin 1024) (q : Fin 512) :
    k0_pay1 (F := Ideal) (k0_pay5 x0) (iota .tc S1024x512 32 [1] iota_S1024x512_d1_w32)
      (k0_pay11 (k0_pay5 x0) (iota .tc S1024x512 32 [1] iota_S1024x512_d1_w32)
        (k0_pay9 (k0_pay5 x0) (iota .tc S1024x512 32 [1] iota_S1024x512_d1_w32) (k0_pay7 x0))) (ix2 p q)
      = Cert.Hist.tokCount x0 p q.val := by
  rw [pay1_apply, pay11_apply, pay9_apply, pay7_apply]
  simp only [tokTerm]
  exact sum16 fun l => if x0 (ix2 p l) ≠ 0#32 ∧ (x0 (ix2 p l)).toNat = q.val then (1 : EReal) else 0

/-- The position accumulator the body stores into columns 512 … 527, at row p and position value q. -/
theorem payPos_apply (x0 x1 : Vec Ideal S1024x16 .i32) (p : Fin 1024) (q : Fin 16) :
    k0_pay2 (F := Ideal) (k0_pay6 x0 x1) (iota .tc S1024x16 32 [1] iota_S1024x16_d1_w32)
      (k0_pay12 (k0_pay6 x0 x1) (iota .tc S1024x16 32 [1] iota_S1024x16_d1_w32)
        (k0_pay10 (k0_pay6 x0 x1) (iota .tc S1024x16 32 [1] iota_S1024x16_d1_w32) (k0_pay8 x0 x1))) (ix2 p q)
      = Cert.Hist.posCount x0 x1 p q.val := by
  rw [pay2_apply, pay12_apply, pay10_apply, pay8_apply]
  simp only [posTerm]
  exact sum16 fun l => if x0 (ix2 p l) ≠ 0#32 ∧ (x1 (ix2 p l)).toNat = q.val then (1 : EReal) else 0

end Cert.KernelIdeal.Pay

end
-- ==== Proof.KernelBlock.lean ====
/-
  What one grid point leaves in the output's staging block: the histogram of its two [1024 × 16] input blocks. The body
  stores two rectangles that tile the [1024 × 528] block — columns 0 … 511 (the token counts) and columns 512 … 527 (the
  position counts) — and each stored value, read at an element, is the count the histogram has there.
-/
import proofs.«430972_j17334488007262_2_alg».proof.Proof.Gen.KernelIdeal.Frame
import proofs.«430972_j17334488007262_2_alg».proof.Proof.KernelPay
import proofs.«430972_j17334488007262_2_alg».proof.Proof.Hist
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.ValueIdx

namespace Cert.KernelIdeal.Block

open Cert.KernelIdeal Cert.KernelIdeal.Gen

theorem hz : (![0, 0] : Fin 2 → Nat) = fun _ => 0 := funext fun a => by fin_cases a <;> rfl

/-- The position counts, stored into columns 512 … 527, are the histogram's there. -/
theorem pos_piece (x0 x1 : Vec Ideal S1024x16 .i32) (x : S1024x16.Idx) :
    k0_pay2 (F := Ideal) (k0_pay6 x0 x1) (iota .tc S1024x16 32 [1] iota_S1024x16_d1_w32)
      (k0_pay12 (k0_pay6 x0 x1) (iota .tc S1024x16 32 [1] iota_S1024x16_d1_w32)
        (k0_pay10 (k0_pay6 x0 x1) (iota .tc S1024x16 32 [1] iota_S1024x16_d1_w32) (k0_pay8 x0 x1))) x
      = Cert.Hist.hist x0 x1 ((Rect.unit (s := S1024x528) ![0, 512] ![1024, 16] inb_S1024x528_S1024x16_0_512).emb x) := by
  obtain ⟨pr, q, rfl⟩ : ∃ (pr : Fin 1024) (q : Fin 16), x = ix2 pr q := ⟨x 0, x 1, eq_ix2 x⟩
  rw [Cert.KernelIdeal.Pay.payPos_apply]
  unfold Cert.Hist.hist
  have e1 : (((Rect.unit (s := S1024x528) ![0, 512] ![1024, 16] inb_S1024x528_S1024x16_0_512).emb (ix2 pr q)) 1).val = 512 + q.val := by
    simp [Rect.emb_apply]
  have e0 : ((Rect.unit (s := S1024x528) ![0, 512] ![1024, 16] inb_S1024x528_S1024x16_0_512).emb (ix2 pr q)) 0 = pr :=
    Fin.ext (by simp [Rect.emb_apply])
  rw [if_neg (by rw [e1]; omega), e0, e1, Nat.add_sub_cancel_left]

/-- The token counts, stored into columns 0 … 511, are the histogram's there. -/
theorem tok_piece (x0 x1 : Vec Ideal S1024x16 .i32) (x : S1024x512.Idx) :
    k0_pay1 (F := Ideal) (k0_pay5 x0) (iota .tc S1024x512 32 [1] iota_S1024x512_d1_w32)
      (k0_pay11 (k0_pay5 x0) (iota .tc S1024x512 32 [1] iota_S1024x512_d1_w32)
        (k0_pay9 (k0_pay5 x0) (iota .tc S1024x512 32 [1] iota_S1024x512_d1_w32) (k0_pay7 x0))) x
      = Cert.Hist.hist x0 x1 ((Rect.unit (s := S1024x528) ![0, 0] ![1024, 512] inb_S1024x528_S1024x512_0_0).emb x) := by
  obtain ⟨pr, q, rfl⟩ : ∃ (pr : Fin 1024) (q : Fin 512), x = ix2 pr q := ⟨x 0, x 1, eq_ix2 x⟩
  rw [Cert.KernelIdeal.Pay.payTok_apply]
  unfold Cert.Hist.hist
  have e1 : (((Rect.unit (s := S1024x528) ![0, 0] ![1024, 512] inb_S1024x528_S1024x512_0_0).emb (ix2 pr q)) 1).val = q.val := by
    simp [Rect.emb_apply]
  have e0 : ((Rect.unit (s := S1024x528) ![0, 0] ![1024, 512] inb_S1024x528_S1024x512_0_0).emb (ix2 pr q)) 0 = pr :=
    Fin.ext (by simp [Rect.emb_apply])
  rw [if_pos (by rw [e1]; exact q.isLt), e0, e1]

/-- The block after the body, as a value: the two stored rectangles read back are the histogram of the input blocks. -/
theorem out_block (c : Dev nD) (i : grid0.Coords) (a1 : Memref sig .tc .vmem S1024x16 .i32) (h1 : a1.IsWhole)
    (a2 : Memref sig .tc .vmem S1024x16 .i32) (h2 : a2.IsWhole) (a3 : Memref sig .tc .vmem S1024x528 .f32) (h3 : a3.IsWhole)
    (x0 x1 : Vec Ideal S1024x16 .i32) :
    out0_A_2 (F := Ideal) c i a1 h1 a2 h2 a3 h3 x0 x1 = Cert.Hist.hist x0 x1 := by
  unfold out0_A_2
  rw [View.read_writes_eq_canon _ _ _ (cover0_A_2 c i a1 h1 a2 h2 a3 h3 x0 x1)]
  funext y
  refine View.canon_apply_of_pieces (Cert.Hist.hist x0 x1) _ ?_ y (cover0_A_2 c i a1 h1 a2 h2 a3 h3 x0 x1 y)
  unfold kernelRun0_A
  dsimp only
  sl_unfold_words
  simp only [View.readAt_eq_ld, h1.read_unread, h2.read_unread, View.ld_unit_zero (S := S1024x16) hz]
  intro p hp x
  simp only [List.mem_cons, List.mem_nil_iff, or_false] at hp
  rcases hp with rfl | rfl
  · exact pos_piece x0 x1 x
  · exact tok_piece x0 x1 x

end Cert.KernelIdeal.Block

end
-- ==== Proof.KernelValue.lean ====
/-
  The idealized kernel's run, read as a value: its result is the histogram of the two reshaped id tables, reshaped.
-/
import proofs.«430972_j17334488007262_2_alg».proof.Proof.Gen.KernelIdeal.Frame
import proofs.«430972_j17334488007262_2_alg».proof.Proof.KernelBlock
import proofs.«430972_j17334488007262_2_alg».proof.Proof.Hist
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.ValueIdx
open Idealize.ShloMosaic.Pipeline (Dat)

namespace Cert.KernelIdeal.KValue

open Cert.KernelIdeal Cert.KernelIdeal.Gen

variable (m : (ℓ : Loc nD τ sig) → Buf (Elt Ideal) ℓ) (ρ : Dev nD → PrngReg)

/-- An entry of the histogram depends only on its column and on its row of the two tables. -/
theorem hist_congr_row {R R' : Nat} (tok pos : IVec ⟨2, ![R, 16]⟩ 32) (tok' pos' : IVec ⟨2, ![R', 16]⟩ 32)
    (i : (⟨2, ![R, 528]⟩ : Shape).Idx) (i' : (⟨2, ![R', 528]⟩ : Shape).Idx) (hc : (i 1).val = (i' 1).val)
    (ht : ∀ l : Fin 16, tok (ix2 (i 0) l) = tok' (ix2 (i' 0) l)) (hp : ∀ l : Fin 16, pos (ix2 (i 0) l) = pos' (ix2 (i' 0) l)) :
    Cert.Hist.hist tok pos i = Cert.Hist.hist tok' pos' i' := by
  unfold Cert.Hist.hist Cert.Hist.tokCount Cert.Hist.posCount
  simp only [hc, ht, hp]

/-- The token table as the region finds it: the first argument reshaped to [65536 × 16]. -/
theorem V_tok (c : Dev nD) :
    (V m c main_v0 : S65536x16.Idx → BitVec 32) = shapeCast S65536x16 (m ((c : Thread nD τ).loc main_arg0)) shapeCasts_S128x512x16_S65536x16 := by
  show StableHlo.after hostOps0 (fun b => m (c, b)) (Proc.devRef .tc main_v0) = _
  after_results
  rfl

/-- The position table as the region finds it: the second argument reshaped to [65536 × 16]. -/
theorem V_pos (c : Dev nD) :
    (V m c main_v1 : S65536x16.Idx → BitVec 32) = shapeCast S65536x16 (m ((c : Thread nD τ).loc main_arg1)) shapeCasts_S128x512x16_S65536x16 := by
  show StableHlo.after hostOps0 (fun b => m (c, b)) (Proc.devRef .tc main_v1) = _
  after_results
  rfl

/-- The printed index maps, decided over the 64 grid points: every window's block row is the point's, its block column 0. -/
theorem idx_facts : ∀ t : Fin cfg0.N, win0_0.index t (0 : Fin 2) = win0_2.index t (0 : Fin 2)
    ∧ win0_1.index t (0 : Fin 2) = win0_2.index t (0 : Fin 2)
    ∧ win0_0.index t (1 : Fin 2) = 0 ∧ win0_1.index t (1 : Fin 2) = 0 ∧ win0_2.index t (1 : Fin 2) = 0
    ∧ win0_2.index t (0 : Fin 2) ≤ 63 :=
  (by decide +kernel : ∀ t : Fin grid0.N, _)

/-- Every one of the 64 row blocks is some point's. -/
theorem idx_onto : ∀ q0 : Fin 64, ∃ t : Fin cfg0.N, win0_2.index t = ![q0.val, 0] :=
  (by decide +kernel : ∀ q0 : Fin 64, ∃ t : Fin grid0.N, win0_2.index t = ![q0.val, 0])

/-- What point t writes back is block t of the histogram of the two tables as the region finds them. -/
theorem flushed_eq (c : Dev nD) (t : Fin cfg0.N) :
    (dats m 0 c).flushed 2 t = ((cfg0.win 2).blk t).view.read (Elt Ideal) (Cert.Hist.hist (V m c main_v0) (V m c main_v1)) := by
  show (cfg0.win 2).cut (grid0.coords t) ((dats m 0 c).after 2 t) = _
  rw [after0_2]
  unfold outsAt0
  rw [Cert.KernelIdeal.Block.out_block]
  obtain ⟨e0, e1, e2, e3, e4, e5⟩ := idx_facts t
  funext j
  show Cert.Hist.hist (iblk m c 0 t) (iblk m c 1 t) j
    = Cert.Hist.hist (V m c main_v0) (V m c main_v1) (((cfg0.win 2).blk t).view.emb j)
  refine hist_congr_row _ _ _ _ j _ ?_ ?_ ?_
  · show (j 1).val = win0_2.index t (1 : Fin 2) * 528 + 1 * (j 1).val
    rw [e4]; omega
  · intro l
    show V m c main_v0 (((cfg0.win 0).blk t).view.emb (ix2 (j 0) l)) = _
    congr 1
    funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 16 + 1 * l.val = l.val; omega
  · intro l
    show V m c main_v1 (((cfg0.win 1).blk t).view.emb (ix2 (j 0) l)) = _
    congr 1
    funext a; apply Fin.ext
    match a with
    | ⟨0, _⟩ => show win0_1.index t (0 : Fin 2) * 1024 + 1 * (j 0).val = win0_2.index t (0 : Fin 2) * 1024 + 1 * (j 0).val; omega
    | ⟨1, _⟩ => show win0_1.index t (1 : Fin 2) * 16 + 1 * l.val = l.val; omega

/-- An index of the result array is in point t's block iff each coordinate is in the block's range on its axis. -/
theorem mem_blk (t : Fin cfg0.N) (i : S65536x528.Idx) :
    i ∈ ((cfg0.win 2).blk t).view.set ↔ ∀ a : Fin 2, win0_2.index t a * S1024x528.size a ≤ (i a).val ∧ (i a).val < win0_2.index t a * S1024x528.size a + S1024x528.size a := by
  show i ∈ ((View.whole main_v2).slice (win0_2.rect t)).set ↔ _
  rw [View.set_slice_whole, Rect.mem_set_unit]
  exact Iff.rfl

/-- The 64 row blocks cover the result array: row r lies in block r / 1024. -/
theorem cover (i : S65536x528.Idx) : ∃ t : Fin cfg0.N, (cfg0.win 2).flush t = true ∧ i ∈ ((cfg0.win 2).blk t).view.set := by
  have hi0 : (i 0).val < 65536 := (i 0).isLt
  have hi1 : (i 1).val < 528 := (i 1).isLt
  obtain ⟨t, ht⟩ := idx_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 528 ≤ (i 1).val ∧ (i 1).val < win0_2.index t (1 : Fin 2) * 528 + 528; omega

/-- The result array after the run: the histogram of the two tables as the region finds them. -/
theorem final (c : Dev nD) : (dats m 0 c).arrAt 2 cfg0.N = Cert.Hist.hist (V m c main_v0) (V m c main_v1) :=
  (dats m 0 c).arrAt_eq_of_cover 2 (Cert.Hist.hist (V m c main_v0) (V m c main_v1)) (fun t _ => flushed_eq m c t) cover

/-- The host line after the region reshapes the result array to [128 × 512 × 528]. -/
theorem tail_eq (c : Dev nD) :
    (Pipeline.afterTail₀ cfgs (dats m) 0 (V0 m) [hostOps1] c main_v3 : S128x512x528.Idx → EReal)
      = shapeCast S128x512x528 ((dats m 0 c).arrAt 2 cfg0.N) shapeCasts_S65536x528_S128x512x528 := by
  unfold Pipeline.afterTail₀
  show StableHlo.after hostOps1 _ (Proc.devRef .tc main_v3) = _
  after_results
  rw [show Pipeline.withArrays (cfgs 0).spec c (V0 m c) (fun w => (dats m 0 c).arrAt w (cfgs 0).N) (Proc.tc.devRef main_v2)
      = (dats m 0 c).arrAt 2 cfg0.N from Pipeline.withArrays_arr spec0 launch0.win.arr_inj c _ _ 2]
  rfl

/-- THE RUN, READ: every weakly fair execution of the idealized kernel terminates with its result at the histogram of the
    two reshaped argument tables, reshaped to [128 × 512 × 528], and the arguments unchanged. -/
theorem run : θ_run defs (onTc (τ := τ) (main (F := Ideal))) ⟨m, fun _ => 0, ρ⟩ fun r => ∀ c : Dev nD,
      r.2.mem ((c.tc : Thread nD τ).loc main_v3)
        = shapeCast S128x512x528
            (Cert.Hist.hist (shapeCast S65536x16 (m ((c.tc : Thread nD τ).loc main_arg0)) shapeCasts_S128x512x16_S65536x16)
              (shapeCast S65536x16 (m ((c.tc : Thread nD τ).loc main_arg1)) shapeCasts_S128x512x16_S65536x16))
            shapeCasts_S65536x528_S128x512x528
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans
        ((tail_eq m c).trans (by rw [final m c, V_tok m c, V_pos m c])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KValue

end
-- ==== Proof.LibScatterAddAt.lean ====
/-
  The host's accumulating float scatter (`stablehlo.scatter` with an `add` body over several scatter indices) READ AT ONE
  ELEMENT of its result, at the ideal instance: the operand's element plus the sum, over ALL updates, of those whose
  index lands on the element — an if-sum over the updates' coordinate ranges, the index words read signed. An index
  word that is negative or past the operand's extent equals no element's coordinate, so its update is in no element's
  sum: the operation drops it. General in the sizes; the dimension numbers enter as equations on the record's fields,
  which a printed record meets by `rfl`.

  Three shapes of dimension numbers: updates added into a vector, one index word each (a count or a sum by segment);
  update rows added into the rows of a matrix, one index word per row (a sum of rows by segment); updates added into a
  matrix at (row, column) pairs of index words (an adjacency matrix from an edge list).
-/
import Idealize.ShloMosaic.Lib.ValueIdxRank1
import Mathlib.Algebra.BigOperators.Group.Finset.Basic
import Mathlib.Algebra.BigOperators.Group.Finset.Piecewise

noncomputable section

open scoped BigOperators

namespace Cert.LibScatterAddAt

open Idealize.ShloMosaic Idealize.ShloMosaic.ValueIdx

/-! ## Where an update lands -/

/-- An update index `j` lands on the operand element `i` iff on every operand axis the window's start (the index word
    read signed, or 0) plus the window coordinate IS `i`'s coordinate — in particular it is then inside the operand,
    and an update one of whose sums is negative or past the extent lands nowhere. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro he a
      have hf := congrFun (Option.some.inj he) a
      have hv : (d.start j idx a + (d.window j a : ℤ)).toNat = (i a).val := congrArg Fin.val hf
      have h0 := (h a).1
      omega
    · intro hall
      refine congrArg some (funext fun a => Fin.ext ?_)
      show (d.start j idx a + (d.window j a : ℤ)).toNat = (i a).val
      rw [hall a]; exact Int.toNat_natCast _
  · rename_i h
    constructor
    · intro he; exact absurd he (by simp)
    · intro hall
      exact absurd (fun a => by rw [hall a]; exact ⟨Int.natCast_nonneg _, by exact_mod_cast (i a).isLt⟩) h

/-! ## Updates added into a vector, one index word each -/

section Vec

variable {N n w : Nat}

/-- With the operand's one axis inserted and mapped from the index word (index_vector_dim = 1 over indices [n, 1], no
    window axis), update `e`'s window starts at the word `idx[e, 0]` and has no extent. -/
theorem vec_start (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1) (idx : IVec ⟨2, ![n, 1]⟩ w) (e : Fin n) :
    d.start (ix1 e) idx 0 = (idx (ix2 e 0)).toInt ∧ d.window (ix1 e) 0 = 0 := by
  obtain ⟨uw, iw, sd, iv, wf⟩ := d
  dsimp only at huw hiw hsd hiv
  subst huw hiw hsd hiv
  refine ⟨?_, ?_⟩
  · unfold ScatterDims.start
    rw [dif_pos (show (0 : Fin 1) ∈ [(0 : Fin 1)] by decide)]
    refine congrArg (fun k => (idx k).toInt) (funext fun b => Fin.ext ?_)
    match b with
    | ⟨0, _⟩ => rfl
    | ⟨1, _⟩ => rfl
  · unfold ScatterDims.window; rw [dif_neg (by simp [ScatterDims.sKept, Shape.kept])]

/-- THE VECTOR SCATTER READ AT i: the operand's element plus every update whose index word is `i` (read signed; a
    negative or too large word matches no coordinate). With updates all 1 this counts the words equal to `i`. -/
theorem ideal_scatterAdd_vec_apply (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![n, 1]⟩ w) (upd : (⟨1, ![n]⟩ : Shape).Idx → EReal) (i : Fin N) :
    Ideal.hostScatterAdd d x idx upd (ix1 i)
      = x (ix1 i) + ∑ e : Fin n, if (idx (ix2 e 0)).toInt = (i.val : ℤ) then upd (ix1 e) else 0 := by
  unfold Ideal.hostScatterAdd
  congr 1
  rw [Finset.sum_filter, ← Equiv.sum_comp (idxEquiv1 (n := n)).symm]
  refine Finset.sum_congr rfl fun e _ => ?_
  show (if d.resultIdx? (ix1 e) idx = some (ix1 i) then upd (ix1 e) else 0) = _
  obtain ⟨h0, w0⟩ := vec_start d huw hiw hsd hiv idx e
  have key : d.resultIdx? (ix1 e) idx = some (ix1 i) ↔ (idx (ix2 e 0)).toInt = (i.val : ℤ) := by
    rw [resultIdx?_eq_some_iff]
    constructor
    · intro h
      have a0 := h 0
      rw [h0, w0] at a0
      simp only [Nat.cast_zero, add_zero] at a0
      exact a0
    · intro e0 a
      match a with
      | ⟨0, _⟩ => show d.start (ix1 e) idx 0 + (d.window (ix1 e) 0 : ℤ) = _; rw [h0, w0, e0]; simp
  simp only [key]

/-- The same of the program's operation `Host.scatterAdd` at the ideal instance. -/
theorem host_scatterAdd_vec_apply {φ : FTy} (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (x : FVec Ideal ⟨1, ![N]⟩ φ) (idx : IVec ⟨2, ![n, 1]⟩ w) (upd : FVec Ideal ⟨1, ![n]⟩ φ) (i : Fin N) :
    Host.scatterAdd (F := Ideal) d x idx upd (ix1 i)
      = x (ix1 i) + ∑ e : Fin n, if (idx (ix2 e 0)).toInt = (i.val : ℤ) then upd (ix1 e) else 0 :=
  ideal_scatterAdd_vec_apply d huw hiw hsd hiv x idx upd i

end Vec

/-! ## Update rows added into the rows of a matrix, one index word per row -/

section Rows

variable {N D n w : Nat}

/-- With the operand's row axis inserted and mapped from the index word and its column axis the updates' window axis
    (index_vector_dim = 1 over indices [n, 1]), update `(e, j')`'s window starts at row word `idx[e, 0]`, column 0, and
    `j'` is its coordinate along the row. -/
theorem rows_start (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hiv : d.indexVectorDim = 1) (idx : IVec ⟨2, ![n, 1]⟩ w) (e : Fin n) (j' : Fin D) :
    d.start (ix2 e j') idx 0 = (idx (ix2 e 0)).toInt ∧ d.start (ix2 e j') idx 1 = 0
      ∧ d.window (ix2 e j') 0 = 0 ∧ d.window (ix2 e j') 1 = j'.val := by
  obtain ⟨uw, iw, sd, iv, wf⟩ := d
  dsimp only at huw hiw hsd hiv
  subst huw hiw hsd hiv
  refine ⟨?_, ?_, ?_, ?_⟩
  · unfold ScatterDims.start
    rw [dif_pos (show (0 : Fin 2) ∈ [(0 : Fin 2)] by decide)]
    refine congrArg (fun k => (idx k).toInt) (funext fun b => Fin.ext ?_)
    match b with
    | ⟨0, _⟩ => rfl
    | ⟨1, _⟩ => rfl
  · unfold ScatterDims.start; rw [dif_neg (by simp)]
  · unfold ScatterDims.window; rw [dif_neg (by simp [ScatterDims.sKept, Shape.kept])]
  · unfold ScatterDims.window; rw [dif_pos (by simp [ScatterDims.sKept, Shape.kept])]; rfl

/-- THE ROW SCATTER READ AT (i, j): the operand's element plus, of every update row whose index word is `i` (read
    signed; a negative or too large word matches no row), the element in column `j`. -/
theorem ideal_scatterAdd_rows_apply (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hiv : d.indexVectorDim = 1)
    (x : (⟨2, ![N, D]⟩ : Shape).Idx → EReal) (idx : IVec ⟨2, ![n, 1]⟩ w) (upd : (⟨2, ![n, D]⟩ : Shape).Idx → EReal)
    (i : Fin N) (j : Fin D) :
    Ideal.hostScatterAdd d x idx upd (ix2 i j)
      = x (ix2 i j) + ∑ e : Fin n, if (idx (ix2 e 0)).toInt = (i.val : ℤ) then upd (ix2 e j) else 0 := by
  unfold Ideal.hostScatterAdd
  congr 1
  rw [Finset.sum_filter, sum_idx2]
  refine Finset.sum_congr rfl fun e _ => ?_
  have key : ∀ j' : Fin D, d.resultIdx? (ix2 e j') idx = some (ix2 i j)
      ↔ ((idx (ix2 e 0)).toInt = (i.val : ℤ) ∧ j' = j) := by
    intro j'
    obtain ⟨h0, h1, w0, w1⟩ := rows_start d huw hiw hsd hiv idx e j'
    rw [resultIdx?_eq_some_iff]
    constructor
    · intro h
      have a0 := h 0; have a1 := h 1
      rw [h0, w0] at a0; rw [h1, w1] at a1
      simp only [Nat.cast_zero, add_zero, zero_add] at a0 a1
      exact ⟨a0, Fin.ext (by exact_mod_cast a1)⟩
    · rintro ⟨e0, rfl⟩ a
      match a with
      | ⟨0, _⟩ => show d.start (ix2 e j') idx 0 + (d.window (ix2 e j') 0 : ℤ) = _; rw [h0, w0, e0]; simp
      | ⟨1, _⟩ => show d.start (ix2 e j') idx 1 + (d.window (ix2 e j') 1 : ℤ) = _; rw [h1, w1]; simp
  simp only [key]
  by_cases hA : (idx (ix2 e 0)).toInt = (i.val : ℤ)
  · simp only [hA, true_and]
    rw [Finset.sum_ite_eq']; simp
  · simp only [hA, false_and, if_false]
    exact Finset.sum_const_zero

/-- The same of the program's operation `Host.scatterAdd` at the ideal instance. -/
theorem host_scatterAdd_rows_apply {φ : FTy} (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hiv : d.indexVectorDim = 1)
    (x : FVec Ideal ⟨2, ![N, D]⟩ φ) (idx : IVec ⟨2, ![n, 1]⟩ w) (upd : FVec Ideal ⟨2, ![n, D]⟩ φ) (i : Fin N) (j : Fin D) :
    Host.scatterAdd (F := Ideal) d x idx upd (ix2 i j)
      = x (ix2 i j) + ∑ e : Fin n, if (idx (ix2 e 0)).toInt = (i.val : ℤ) then upd (ix2 e j) else 0 :=
  ideal_scatterAdd_rows_apply d huw hiw hsd hiv x idx upd i j

end Rows

/-! ## Updates added into a matrix at (row, column) pairs of index words -/

section Points

variable {N M n w : Nat}

/-- With both operand axes inserted and mapped from the index pair (index_vector_dim = 1 over indices [n, 2], no window
    axis), update `e`'s window starts at row word `idx[e, 0]` and column word `idx[e, 1]`, and has no extent. -/
theorem points_start (d : ScatterDims ⟨2, ![N, M]⟩ ⟨2, ![n, 2]⟩ ⟨1, ![n]⟩)
    (huw : d.updateWindowDims = []) (hiw : d.insertedWindowDims = [0, 1]) (hsd : d.scatterDimsToOperandDims = [0, 1])
    (hiv : d.indexVectorDim = 1) (idx : IVec ⟨2, ![n, 2]⟩ w) (e : Fin n) :
    d.start (ix1 e) idx 0 = (idx (ix2 e 0)).toInt ∧ d.start (ix1 e) idx 1 = (idx (ix2 e 1)).toInt
      ∧ d.window (ix1 e) 0 = 0 ∧ d.window (ix1 e) 1 = 0 := by
  obtain ⟨uw, iw, sd, iv, wf⟩ := d
  dsimp only at huw hiw hsd hiv
  subst huw hiw hsd hiv
  refine ⟨?_, ?_, ?_, ?_⟩
  · unfold ScatterDims.start
    rw [dif_pos (show (0 : Fin 2) ∈ [(0 : Fin 2), 1] by decide)]
    refine congrArg (fun k => (idx k).toInt) (funext fun b => Fin.ext ?_)
    match b with
    | ⟨0, _⟩ => rfl
    | ⟨1, _⟩ => rfl
  · unfold ScatterDims.start
    rw [dif_pos (show (1 : Fin 2) ∈ [(0 : Fin 2), 1] by decide)]
    refine congrArg (fun k => (idx k).toInt) (funext fun b => Fin.ext ?_)
    match b with
    | ⟨0, _⟩ => rfl
    | ⟨1, _⟩ => rfl
  · unfold ScatterDims.window; rw [dif_neg (by simp [ScatterDims.sKept, Shape.kept])]
  · unfold ScatterDims.window; rw [dif_neg (by simp [ScatterDims.sKept, Shape.kept])]

/-- THE POINT SCATTER READ AT (i, c): the operand's element plus every update whose row word is `i` and whose column
    word is `c` (read signed; a negative or too large word matches no coordinate). -/
theorem ideal_scatterAdd_points_apply (d : ScatterDims ⟨2, ![N, M]⟩ ⟨2, ![n, 2]⟩ ⟨1, ![n]⟩)
    (huw : d.updateWindowDims = []) (hiw : d.insertedWindowDims = [0, 1]) (hsd : d.scatterDimsToOperandDims = [0, 1])
    (hiv : d.indexVectorDim = 1)
    (x : (⟨2, ![N, M]⟩ : Shape).Idx → EReal) (idx : IVec ⟨2, ![n, 2]⟩ w) (upd : (⟨1, ![n]⟩ : Shape).Idx → EReal)
    (i : Fin N) (c : Fin M) :
    Ideal.hostScatterAdd d x idx upd (ix2 i c)
      = x (ix2 i c) + ∑ e : Fin n,
          if (idx (ix2 e 0)).toInt = (i.val : ℤ) ∧ (idx (ix2 e 1)).toInt = (c.val : ℤ) then upd (ix1 e) else 0 := by
  unfold Ideal.hostScatterAdd
  congr 1
  rw [Finset.sum_filter, ← Equiv.sum_comp (idxEquiv1 (n := n)).symm]
  refine Finset.sum_congr rfl fun e _ => ?_
  show (if d.resultIdx? (ix1 e) idx = some (ix2 i c) then upd (ix1 e) else 0) = _
  obtain ⟨h0, h1, w0, w1⟩ := points_start d huw hiw hsd hiv idx e
  have key : d.resultIdx? (ix1 e) idx = some (ix2 i c)
      ↔ (idx (ix2 e 0)).toInt = (i.val : ℤ) ∧ (idx (ix2 e 1)).toInt = (c.val : ℤ) := by
    rw [resultIdx?_eq_some_iff]
    constructor
    · intro h
      have a0 := h 0; have a1 := h 1
      rw [h0, w0] at a0; rw [h1, w1] at a1
      simp only [Nat.cast_zero, add_zero] at a0 a1
      exact ⟨a0, a1⟩
    · rintro ⟨e0, e1⟩ a
      match a with
      | ⟨0, _⟩ => show d.start (ix1 e) idx 0 + (d.window (ix1 e) 0 : ℤ) = _; rw [h0, w0, e0]; simp
      | ⟨1, _⟩ => show d.start (ix1 e) idx 1 + (d.window (ix1 e) 1 : ℤ) = _; rw [h1, w1, e1]; simp
  simp only [key]

/-- The same of the program's operation `Host.scatterAdd` at the ideal instance. -/
theorem host_scatterAdd_points_apply {φ : FTy} (d : ScatterDims ⟨2, ![N, M]⟩ ⟨2, ![n, 2]⟩ ⟨1, ![n]⟩)
    (huw : d.updateWindowDims = []) (hiw : d.insertedWindowDims = [0, 1]) (hsd : d.scatterDimsToOperandDims = [0, 1])
    (hiv : d.indexVectorDim = 1)
    (x : FVec Ideal ⟨2, ![N, M]⟩ φ) (idx : IVec ⟨2, ![n, 2]⟩ w) (upd : FVec Ideal ⟨1, ![n]⟩ φ) (i : Fin N) (c : Fin M) :
    Host.scatterAdd (F := Ideal) d x idx upd (ix2 i c)
      = x (ix2 i c) + ∑ e : Fin n,
          if (idx (ix2 e 0)).toInt = (i.val : ℤ) ∧ (idx (ix2 e 1)).toInt = (c.val : ℤ) then upd (ix1 e) else 0 :=
  ideal_scatterAdd_points_apply d huw hiw hsd hiv x idx upd i c

end Points

end Cert.LibScatterAddAt

end
-- ==== Proof.LibScatterAddPairs.lean ====
/-
  The host's accumulating float scatter READ AT ONE ELEMENT, for updates laid out as a MATRIX and added into a matrix
  at (row, column) PAIRS of index words: the indices are [n × L × 2] (the pair on the last axis), the updates [n × L],
  the operand [N × M]; both operand axes are inserted window axes mapped from the pair, no window axis. (jnp's
  `x.at[rows, cols].add(u)` with `rows`, `cols`, `u` all [n × L].) At the ideal instance the result at (i, c) is the
  operand's element plus the sum, over ALL n·L updates, of those whose row word is i and whose column word is c, the
  words read signed: a word that is negative or past the extent equals no coordinate, so that update is dropped.
  General in the sizes; the dimension numbers enter as equations a printed record meets by `rfl`.
-/
import proofs.«430972_j17334488007262_2_alg».proof.Proof.LibScatterAddAt
import Idealize.ShloMosaic.Lib.ValueIdx

noncomputable section

open scoped BigOperators

namespace Cert.LibScatterAddPairs

open Idealize.ShloMosaic Idealize.ShloMosaic.ValueIdx

variable {N M n L w : Nat}

/-- With both operand axes inserted and mapped from the index pair (index_vector_dim = 2 over indices [n, L, 2], no
    window axis), update `(e, k)`'s window starts at row word `idx[e, k, 0]` and column word `idx[e, k, 1]`, and has
    no extent. -/
theorem pairs_start (d : ScatterDims ⟨2, ![N, M]⟩ ⟨3, ![n, L, 2]⟩ ⟨2, ![n, L]⟩)
    (huw : d.updateWindowDims = []) (hiw : d.insertedWindowDims = [0, 1]) (hsd : d.scatterDimsToOperandDims = [0, 1])
    (hiv : d.indexVectorDim = 2) (idx : IVec ⟨3, ![n, L, 2]⟩ w) (e : Fin n) (k : Fin L) :
    d.start (ix2 e k) idx 0 = (idx (ix3 e k 0)).toInt ∧ d.start (ix2 e k) idx 1 = (idx (ix3 e k 1)).toInt
      ∧ d.window (ix2 e k) 0 = 0 ∧ d.window (ix2 e k) 1 = 0 := by
  obtain ⟨uw, iw, sd, iv, wf⟩ := d
  dsimp only at huw hiw hsd hiv
  subst huw hiw hsd hiv
  refine ⟨?_, ?_, ?_, ?_⟩
  · unfold ScatterDims.start
    rw [dif_pos (show (0 : Fin 2) ∈ [(0 : Fin 2), 1] by decide)]
    refine congrArg (fun q => (idx q).toInt) (funext fun b => Fin.ext ?_)
    match b with
    | ⟨0, _⟩ => rfl
    | ⟨1, _⟩ => rfl
    | ⟨2, _⟩ => rfl
  · unfold ScatterDims.start
    rw [dif_pos (show (1 : Fin 2) ∈ [(0 : Fin 2), 1] by decide)]
    refine congrArg (fun q => (idx q).toInt) (funext fun b => Fin.ext ?_)
    match b with
    | ⟨0, _⟩ => rfl
    | ⟨1, _⟩ => rfl
    | ⟨2, _⟩ => rfl
  · unfold ScatterDims.window; rw [dif_neg (by simp [ScatterDims.sKept, Shape.kept])]
  · unfold ScatterDims.window; rw [dif_neg (by simp [ScatterDims.sKept, Shape.kept])]

/-- Update `(e, k)` lands on the element (i, c) iff its row word is `i` and its column word is `c`, read signed. -/
theorem pairs_resultIdx?_iff (d : ScatterDims ⟨2, ![N, M]⟩ ⟨3, ![n, L, 2]⟩ ⟨2, ![n, L]⟩)
    (huw : d.updateWindowDims = []) (hiw : d.insertedWindowDims = [0, 1]) (hsd : d.scatterDimsToOperandDims = [0, 1])
    (hiv : d.indexVectorDim = 2) (idx : IVec ⟨3, ![n, L, 2]⟩ w) (e : Fin n) (k : Fin L) (i : Fin N) (c : Fin M) :
    d.resultIdx? (ix2 e k) idx = some (ix2 i c)
      ↔ (idx (ix3 e k 0)).toInt = (i.val : ℤ) ∧ (idx (ix3 e k 1)).toInt = (c.val : ℤ) := by
  obtain ⟨h0, h1, w0, w1⟩ := pairs_start d huw hiw hsd hiv idx e k
  rw [Cert.LibScatterAddAt.resultIdx?_eq_some_iff]
  constructor
  · intro h
    have a0 := h 0; have a1 := h 1
    rw [h0, w0] at a0; rw [h1, w1] at a1
    simp only [Nat.cast_zero, add_zero] at a0 a1
    exact ⟨a0, a1⟩
  · rintro ⟨e0, e1⟩ a
    match a with
    | ⟨0, _⟩ => show d.start (ix2 e k) idx 0 + (d.window (ix2 e k) 0 : ℤ) = _; rw [h0, w0, e0]; simp
    | ⟨1, _⟩ => show d.start (ix2 e k) idx 1 + (d.window (ix2 e k) 1 : ℤ) = _; rw [h1, w1, e1]; simp

/-- THE PAIR SCATTER OF A MATRIX OF UPDATES READ AT (i, c), over the extended reals: the operand's element plus every
    update whose row word is `i` and whose column word is `c` (read signed; a negative or too large word matches no
    coordinate), summed over both update axes. -/
theorem ideal_scatterAdd_pairs_apply (d : ScatterDims ⟨2, ![N, M]⟩ ⟨3, ![n, L, 2]⟩ ⟨2, ![n, L]⟩)
    (huw : d.updateWindowDims = []) (hiw : d.insertedWindowDims = [0, 1]) (hsd : d.scatterDimsToOperandDims = [0, 1])
    (hiv : d.indexVectorDim = 2)
    (x : (⟨2, ![N, M]⟩ : Shape).Idx → EReal) (idx : IVec ⟨3, ![n, L, 2]⟩ w) (upd : (⟨2, ![n, L]⟩ : Shape).Idx → EReal)
    (i : Fin N) (c : Fin M) :
    Ideal.hostScatterAdd d x idx upd (ix2 i c)
      = x (ix2 i c) + ∑ e : Fin n, ∑ k : Fin L,
          if (idx (ix3 e k 0)).toInt = (i.val : ℤ) ∧ (idx (ix3 e k 1)).toInt = (c.val : ℤ) then upd (ix2 e k) else 0 := by
  unfold Ideal.hostScatterAdd
  congr 1
  rw [Finset.sum_filter, sum_idx2]
  refine Finset.sum_congr rfl fun e _ => Finset.sum_congr rfl fun k _ => ?_
  simp only [pairs_resultIdx?_iff d huw hiw hsd hiv idx e k i c]

/-- THE PAIR SCATTER OF A MATRIX OF UPDATES READ AT (i, c). -/
theorem host_scatterAdd_pairs_apply {φ : FTy} (d : ScatterDims ⟨2, ![N, M]⟩ ⟨3, ![n, L, 2]⟩ ⟨2, ![n, L]⟩)
    (huw : d.updateWindowDims = []) (hiw : d.insertedWindowDims = [0, 1]) (hsd : d.scatterDimsToOperandDims = [0, 1])
    (hiv : d.indexVectorDim = 2)
    (x : FVec Ideal ⟨2, ![N, M]⟩ φ) (idx : IVec ⟨3, ![n, L, 2]⟩ w) (upd : FVec Ideal ⟨2, ![n, L]⟩ φ) (i : Fin N) (c : Fin M) :
    Host.scatterAdd (F := Ideal) d x idx upd (ix2 i c)
      = x (ix2 i c) + ∑ e : Fin n, ∑ k : Fin L,
          if (idx (ix3 e k 0)).toInt = (i.val : ℤ) ∧ (idx (ix3 e k 1)).toInt = (c.val : ℤ) then upd (ix2 e k) else 0 :=
  ideal_scatterAdd_pairs_apply d huw hiw hsd hiv x idx upd i c

end Cert.LibScatterAddPairs

end
-- ==== Proof.RefWords.lean ====
/-
  The words the reference's two scatters read, one element at a time: the row word of every update is its own row
  number; with the ids in range the column word of the first scatter is the token and that of the second is 512 plus the
  position, neither wrapped; the update value is 1 for a non-padding character and 0 for padding; the operand starts at 0.
-/
import proofs.«430972_j17334488007262_2_alg».proof.Proof.Gen.ReferenceIdeal.Read
import proofs.«430972_j17334488007262_2_alg».proof.Proof.Hist
import Idealize.ShloMosaic.Lib.StableHlo.Predicate
import Idealize.ShloMosaic.PureOps.Ideal.Laws

noncomputable section

namespace Cert.ReferenceIdeal.RefWords

open Idealize.ShloMosaic Idealize.ShloMosaic.ValueIdx Cert.ReferenceIdeal Cert.ReferenceIdeal.Gen Cert.ReferenceIdeal.Read

/-! ## One or two 32-bit words -/

/-- The wrap of a negative index (w + n where w is negative read signed, else w) leaves a word below 2³¹ alone: read
    signed it is not negative. -/
private theorem wrap_of_lt (w n : BitVec 32) (hw : w.toNat < 2 ^ 31) :
    Scalar.select (IntOp.cmpi .slt w 0#32) (IntOp.addi w n) w = w := by
  have hc : ¬ (IntOp.cmpi .slt w 0#32 = 1#1) := by
    rw [StableHlo.Predicate.slt_iff_toNat hw (by decide)]
    exact Nat.not_lt_zero _
  unfold Scalar.select
  exact if_neg hc

/-- A row number below 65536, as a 32-bit word, is below 2³¹. -/
private theorem toNat_row (e : Fin 65536) : (BitVec.ofNat 32 e.val).toNat = e.val := by
  rw [BitVec.toNat_ofNat]
  exact Nat.mod_eq_of_lt (by have := e.isLt; omega)

/-- The wrapped row number, read signed, is the row number. -/
private theorem row_word (e : Fin 65536) (n : BitVec 32) :
    (Scalar.select (IntOp.cmpi .slt (BitVec.ofNat 32 e.val) 0#32) (IntOp.addi (BitVec.ofNat 32 e.val) n)
      (BitVec.ofNat 32 e.val)).toInt = (e.val : ℤ) := by
  rw [wrap_of_lt _ _ (by rw [toNat_row]; have := e.isLt; omega)]
  exact StableHlo.Predicate.toInt_ofNat_small e.val (by have := e.isLt; omega)

/-- The wrapped token word, read signed, is the token: a token below 512 is not negative. -/
private theorem tok_word (t : BitVec 32) (ht : t.toNat < 512) :
    (Scalar.select (IntOp.cmpi .slt t 0#32) (IntOp.addi t 528#32) t).toInt = (t.toNat : ℤ) := by
  rw [wrap_of_lt _ _ (by omega)]
  exact StableHlo.Predicate.toInt_eq_toNat_of_lt (by omega)

/-- 512 plus a position below 16 does not overflow. -/
private theorem toNat_shift (p : BitVec 32) (hp : p.toNat < 16) : (IntOp.addi 512#32 p).toNat = 512 + p.toNat := by
  unfold IntOp.addi
  rw [BitVec.toNat_add]
  show (512 + p.toNat) % 2 ^ 32 = 512 + p.toNat
  exact Nat.mod_eq_of_lt (by omega)

/-- The wrapped shifted position word, read signed, is 512 plus the position. -/
private theorem pos_word (p : BitVec 32) (hp : p.toNat < 16) :
    (Scalar.select (IntOp.cmpi .slt (IntOp.addi 512#32 p) 0#32) (IntOp.addi (IntOp.addi 512#32 p) 528#32)
      (IntOp.addi 512#32 p)).toInt = ((512 + p.toNat : ℕ) : ℤ) := by
  have h := toNat_shift p hp
  rw [wrap_of_lt _ _ (by omega), StableHlo.Predicate.toInt_eq_toNat_of_lt (by omega), h]

/-- The bit of an inequality of two words, read unsigned and taken to the extended reals, is 1 or 0. -/
private theorem ne_bit (t : BitVec 32) :
    (FloatOps.uitofp (F := Ideal) .f32 (IntOp.cmpi .ne t 0#32) : EReal) = if t ≠ 0#32 then (1 : EReal) else 0 := by
  show (((IntOp.cmpi .ne t 0#32).toNat : ℝ) : EReal) = _
  by_cases h : t = 0#32
  · subst h
    rw [if_neg (by simp)]
    simp [IntOp.cmpi]
  · rw [if_pos h]
    have hb : IntOp.cmpi .ne t 0#32 = 1#1 := by
      unfold IntOp.cmpi
      exact (StableHlo.Predicate.ofBool_eq_one_iff _).mpr (bne_iff_ne.mpr h)
    rw [hb]
    simp

/-! ## The reference's arrays at one element -/

variable (x0 x1 : (⟨S128x512x16, .i32⟩ : BufTy).Contents (Elt Ideal))

/-- The zero matrix the first scatter adds into. -/
theorem zero_apply (i : S65536x528.Idx) : val_main_v8 (F := Ideal) i = (0 : EReal) := by
  rw [val_main_v8_apply, val_main_cst_apply]
  exact Ideal.ofBits_zero_f32

/-- The update value: 1 where the token is not the padding value, else 0. -/
theorem mask_apply (e : Fin 65536) (k : Fin 16) :
    val_main_v4 (F := Ideal) x0 (ix2 e k) = if val_main_v0 (F := Ideal) x0 (ix2 e k) ≠ 0#32 then (1 : EReal) else 0 := by
  rw [val_main_v4_apply, val_main_v3_apply, val_main_v2_apply, val_main_c_apply]
  exact ne_bit _

/-- The row number the broadcasts of the iota hold at (e, k). -/
private theorem rows_apply (e : Fin 65536) (k : Fin 16) :
    val_main_v7 (F := Ideal) (ix2 e k) = BitVec.ofNat 32 e.val := by
  rw [val_main_v7_apply, val_main_v6_apply, val_main_v5_apply]

/-- First scatter, row word of update (e, k): the row number e. -/
theorem row_word_tok (e : Fin 65536) (k : Fin 16) :
    (val_main_v21 (F := Ideal) x0 (ix3 e k 0)).toInt = (e.val : ℤ) := by
  have hcat : val_main_v21 (F := Ideal) x0 (ix3 e k 0) = val_main_v19 (F := Ideal) (ix3 e k 0) :=
    concatenate_pair_apply_left (t := S65536x16x2) (s₁ := S65536x16x1) (s₂ := S65536x16x1) 2 _ _
      concatenates_S65536x16x1_S65536x16x1_S65536x16x2_d2 (ix3 e k 0) rfl (ix3 e k 0)
      (fun b => match b with | ⟨0, _⟩ => rfl | ⟨1, _⟩ => rfl | ⟨2, _⟩ => rfl)
  rw [hcat]
  rw [val_main_v19_apply, show idx_main_v19 (ix3 e k (0 : Fin 1)) = ix2 e k from by
    funext a; match a with | ⟨0, _⟩ => rfl | ⟨1, _⟩ => rfl]
  rw [val_main_v13_apply, val_main_v10_apply, val_main_v12_apply, val_main_v9_apply, val_main_c_0_apply,
    val_main_v11_apply, val_main_c_1_apply, rows_apply]
  exact row_word e _

/-- Second scatter, row word of update (e, k): the row number e. -/
theorem row_word_pos (e : Fin 65536) (k : Fin 16) :
    (val_main_v37 (F := Ideal) x1 (ix3 e k 0)).toInt = (e.val : ℤ) := by
  have hcat : val_main_v37 (F := Ideal) x1 (ix3 e k 0) = val_main_v35 (F := Ideal) (ix3 e k 0) :=
    concatenate_pair_apply_left (t := S65536x16x2) (s₁ := S65536x16x1) (s₂ := S65536x16x1) 2 _ _
      concatenates_S65536x16x1_S65536x16x1_S65536x16x2_d2 (ix3 e k 0) rfl (ix3 e k 0)
      (fun b => match b with | ⟨0, _⟩ => rfl | ⟨1, _⟩ => rfl | ⟨2, _⟩ => rfl)
  rw [hcat]
  rw [val_main_v35_apply, show idx_main_v35 (ix3 e k (0 : Fin 1)) = ix2 e k from by
    funext a; match a with | ⟨0, _⟩ => rfl | ⟨1, _⟩ => rfl]
  rw [val_main_v29_apply, val_main_v26_apply, val_main_v28_apply, val_main_v25_apply, val_main_c_5_apply,
    val_main_v27_apply, val_main_c_6_apply, rows_apply]
  exact row_word e _

/-- First scatter, column word of update (e, k): the token, not wrapped (it is not negative). -/
theorem col_word_tok (h : Cert.Hist.InRange (val_main_v0 (F := Ideal) x0) (val_main_v1 (F := Ideal) x1)) (e : Fin 65536) (k : Fin 16) :
    (val_main_v21 (F := Ideal) x0 (ix3 e k 1)).toInt = ((val_main_v0 (F := Ideal) x0 (ix2 e k)).toNat : ℤ) := by
  have hcat : val_main_v21 (F := Ideal) x0 (ix3 e k 1) = val_main_v20 (F := Ideal) x0 (ix3 e k 0) :=
    concatenate_pair_apply_right (t := S65536x16x2) (s₁ := S65536x16x1) (s₂ := S65536x16x1) 2 _ _
      concatenates_S65536x16x1_S65536x16x1_S65536x16x2_d2 (ix3 e k 1) rfl rfl (ix3 e k 0)
      (fun b => match b with | ⟨0, _⟩ => fun _ => rfl | ⟨1, _⟩ => fun _ => rfl | ⟨2, _⟩ => fun hb => absurd rfl hb) rfl
  rw [hcat]
  rw [val_main_v20_apply, show idx_main_v20 (ix3 e k (0 : Fin 1)) = ix2 e k from by
    funext a; match a with | ⟨0, _⟩ => rfl | ⟨1, _⟩ => rfl]
  rw [val_main_v18_apply, val_main_v15_apply, val_main_v17_apply, val_main_v14_apply, val_main_c_2_apply,
    val_main_v16_apply, val_main_c_3_apply]
  exact tok_word _ (h e k).1

/-- Second scatter, column word of update (e, k): 512 plus the position, no overflow and not wrapped. -/
theorem col_word_pos (h : Cert.Hist.InRange (val_main_v0 (F := Ideal) x0) (val_main_v1 (F := Ideal) x1)) (e : Fin 65536) (k : Fin 16) :
    (val_main_v37 (F := Ideal) x1 (ix3 e k 1)).toInt = ((512 + (val_main_v1 (F := Ideal) x1 (ix2 e k)).toNat : ℕ) : ℤ) := by
  have hcat : val_main_v37 (F := Ideal) x1 (ix3 e k 1) = val_main_v36 (F := Ideal) x1 (ix3 e k 0) :=
    concatenate_pair_apply_right (t := S65536x16x2) (s₁ := S65536x16x1) (s₂ := S65536x16x1) 2 _ _
      concatenates_S65536x16x1_S65536x16x1_S65536x16x2_d2 (ix3 e k 1) rfl rfl (ix3 e k 0)
      (fun b => match b with | ⟨0, _⟩ => fun _ => rfl | ⟨1, _⟩ => fun _ => rfl | ⟨2, _⟩ => fun hb => absurd rfl hb) rfl
  rw [hcat]
  rw [val_main_v36_apply, show idx_main_v36 (ix3 e k (0 : Fin 1)) = ix2 e k from by
    funext a; match a with | ⟨0, _⟩ => rfl | ⟨1, _⟩ => rfl]
  rw [val_main_v34_apply, val_main_v31_apply, val_main_v33_apply, val_main_v24_apply, val_main_v30_apply,
    val_main_c_7_apply, val_main_v32_apply, val_main_c_8_apply, val_main_v23_apply, val_main_c_4_apply]
  exact pos_word _ (h e k).2

end Cert.ReferenceIdeal.RefWords

end
-- ==== Proof.RefValue.lean ====
/-
  The reference's result before its last reshape is the histogram of its two reshaped id tables, when the ids are in range.
-/
import proofs.«430972_j17334488007262_2_alg».proof.Proof.Gen.ReferenceIdeal.Read
import proofs.«430972_j17334488007262_2_alg».proof.Proof.Hist
import proofs.«430972_j17334488007262_2_alg».proof.Proof.LibScatterAddPairs
import proofs.«430972_j17334488007262_2_alg».proof.Proof.RefWords

noncomputable section

open scoped BigOperators

namespace Cert.ReferenceIdeal.RefValue

open Idealize.ShloMosaic Idealize.ShloMosaic.ValueIdx Cert.ReferenceIdeal Cert.ReferenceIdeal.Gen Cert.ReferenceIdeal.Read

/-- A double sum whose terms vanish unless the outer index is the row r (the row numbers compared as integers) is the
    inner sum at row r: every other row contributes only zeros. -/
private theorem sum_row_collapse {N L : Nat} (r : Fin N) (P : Fin N → Fin L → Prop) [∀ e k, Decidable (P e k)]
    (f : Fin N → Fin L → EReal) :
    (∑ e : Fin N, ∑ k : Fin L, if ((e.val : ℤ) = (r.val : ℤ) ∧ P e k) then f e k else 0)
      = ∑ k : Fin L, if P r k then f r k else 0 := by
  rw [Finset.sum_eq_single r]
  · refine Finset.sum_congr rfl fun k _ => ?_
    simp only [true_and]
  · intro e _ hne
    refine Finset.sum_eq_zero fun k _ => ?_
    rw [if_neg]
    rintro ⟨h1, _⟩
    exact hne (Fin.ext (by exact_mod_cast h1))
  · intro hr
    exact absurd (Finset.mem_univ r) hr

/-- "The column word is b, and then the update is 1 unless padding" is one condition: not padding and the word is b
    (the word and b compared as integers, which for naturals is the comparison of the naturals). -/
private theorem ite_word_merge (a b : ℕ) (Q : Prop) [Decidable Q] :
    (if ((a : ℤ) = (b : ℤ)) then (if Q then (1 : EReal) else 0) else 0) = if Q ∧ a = b then 1 else 0 := by
  by_cases hab : a = b
  · by_cases hq : Q
    · rw [if_pos (by exact_mod_cast hab), if_pos hq, if_pos ⟨hq, hab⟩]
    · rw [if_pos (by exact_mod_cast hab), if_neg hq, if_neg (fun hh => hq hh.1)]
  · rw [if_neg (fun hh => hab (by exact_mod_cast hh)), if_neg (fun hh => hab hh.2)]

/-- The two accumulating scatters into the zero matrix leave the histogram. -/
theorem val_main_v38_eq_hist (x0 x1 : (⟨S128x512x16, .i32⟩ : BufTy).Contents (Elt Ideal))
    (h : Cert.Hist.InRange (val_main_v0 (F := Ideal) x0) (val_main_v1 (F := Ideal) x1)) :
    val_main_v38 (F := Ideal) x0 x1 = Cert.Hist.hist (val_main_v0 (F := Ideal) x0) (val_main_v1 (F := Ideal) x1) := by
  funext i
  obtain ⟨r, c, rfl⟩ : ∃ (r : Fin 65536) (c : Fin 528), i = ix2 r c := ⟨i 0, i 1, eq_ix2 i⟩
  -- Each scatter read at (r, c): the operand's element plus the updates whose pair of words is (r, c).
  unfold val_main_v38 val_main_v22
  rw [Cert.LibScatterAddPairs.host_scatterAdd_pairs_apply _ rfl rfl rfl rfl]
  rw [Cert.LibScatterAddPairs.host_scatterAdd_pairs_apply _ rfl rfl rfl rfl]
  -- The words: the row word is the row number, the column word the token, resp. 512 plus the position; the operand is 0.
  simp only [RefWords.zero_apply, RefWords.mask_apply, RefWords.row_word_tok, RefWords.row_word_pos,
    RefWords.col_word_tok x0 x1 h, RefWords.col_word_pos x0 x1 h, zero_add]
  -- Only row r contributes to either sum.
  rw [sum_row_collapse r (fun e k => (((val_main_v0 (F := Ideal) x0 (ix2 e k)).toNat : ℕ) : ℤ) = (c.val : ℤ))
        (fun e k => if val_main_v0 (F := Ideal) x0 (ix2 e k) ≠ 0#32 then (1 : EReal) else 0),
      sum_row_collapse r (fun e k => ((512 + (val_main_v1 (F := Ideal) x1 (ix2 e k)).toNat : ℕ) : ℤ) = (c.val : ℤ))
        (fun e k => if val_main_v0 (F := Ideal) x0 (ix2 e k) ≠ 0#32 then (1 : EReal) else 0)]
  -- Each term is 1 exactly when the character is not padding and its column word is c.
  simp only [ite_word_merge]
  show _ = if c.val < 512 then Cert.Hist.tokCount (val_main_v0 (F := Ideal) x0) r c.val
      else Cert.Hist.posCount (val_main_v0 (F := Ideal) x0) (val_main_v1 (F := Ideal) x1) r (c.val - 512)
  by_cases hc : c.val < 512
  · -- A token column: no position word 512 + p reaches it, and the token sum is the token count.
    rw [if_pos hc]
    have hpos : (∑ k : Fin 16, if val_main_v0 (F := Ideal) x0 (ix2 r k) ≠ 0#32
        ∧ 512 + (val_main_v1 (F := Ideal) x1 (ix2 r k)).toNat = c.val then (1 : EReal) else 0) = 0 := by
      refine Finset.sum_eq_zero fun k _ => ?_
      rw [if_neg]
      rintro ⟨_, h2⟩
      omega
    rw [hpos, add_zero]
    rfl
  · -- A position column: every token is below 512 ≤ c, and 512 + p = c says p = c − 512.
    rw [if_neg hc]
    have htok : (∑ k : Fin 16, if val_main_v0 (F := Ideal) x0 (ix2 r k) ≠ 0#32
        ∧ (val_main_v0 (F := Ideal) x0 (ix2 r k)).toNat = c.val then (1 : EReal) else 0) = 0 := by
      refine Finset.sum_eq_zero fun k _ => ?_
      rw [if_neg]
      rintro ⟨_, h2⟩
      have := (h r k).1
      omega
    rw [htok, zero_add]
    unfold Cert.Hist.posCount
    refine Finset.sum_congr rfl fun k _ => ?_
    refine if_congr (and_congr_right fun _ => ?_) rfl rfl
    omega

end Cert.ReferenceIdeal.RefValue

end
-- ==== Proof.PreRange.lean ====
/-
  The printed precondition read: where it is all ones, every token word of the reshaped table is below 512 and every
  position word below 16.
-/
import proofs.«430972_j17334488007262_2_alg».proof.Defs
import proofs.«430972_j17334488007262_2_alg».proof.Proof.Gen.Pre_any_inputs
import proofs.«430972_j17334488007262_2_alg».proof.Proof.Hist
import Idealize.ShloMosaic.Lib.StableHlo.Predicate
import Idealize.ShloMosaic.Lib.Pipeline.Value

noncomputable section

namespace Cert.PreRange

open Idealize.ShloMosaic Idealize.ShloMosaic.ValueIdx

/-- The signed readings of the three literals the mask compares against. -/
private theorem signed_zero : (0#32 : BitVec 32).toInt = 0 := by decide
private theorem signed_512 : (512#32 : BitVec 32).toInt = 512 := by decide
private theorem signed_16 : (16#32 : BitVec 32).toInt = 16 := by decide

/-- A word whose signed reading lies in [0, n) with n at most 2³¹ has the same unsigned reading: a nonnegative signed
    reading means the top bit is clear, and then the two readings agree. -/
private theorem toNat_lt_of_signed {a : BitVec 32} {n : Nat} (h0 : (0 : Int) ≤ a.toInt) (hn : a.toInt < (n : Int))
    (hsmall : n ≤ 2 ^ 31) : a.toNat < n := by
  have hlt := a.isLt
  rw [BitVec.toInt_eq_toNat_cond] at h0 hn
  split at h0
  · rw [if_pos (by assumption)] at hn
    omega
  · omega

/-- Element by element: the mask is one exactly where both words are in their ranges. -/
theorem words_of_pre [Cert.Pre_any_inputs.Facts] (x0 x1 : IVec ⟨3, ![128, 512, 16]⟩ 32)
    (h : Cert.Pre_any_inputs.fn (F := Ideal) x0 x1 = fun _ => 1#1) (i : (⟨3, ![128, 512, 16]⟩ : Shape).Idx) :
    (x0 i).toNat < 512 ∧ (x1 i).toNat < 16 := by
  -- Every operation of the mask is pointwise, and a broadcast scalar reads the scalar: at the index i the mask is
  -- the conjunction of the four signed comparisons of the two words against the literals.
  have hi : IntOp.andi (IntOp.andi (IntOp.andi (IntOp.cmpi .sge (x0 i) 0#32) (IntOp.cmpi .slt (x0 i) 512#32))
      (IntOp.cmpi .sge (x1 i) 0#32)) (IntOp.cmpi .slt (x1 i) 16#32) = 1#1 := congrFun h i
  -- A conjunction of one-bit words is one exactly when each of them is.
  obtain ⟨h123, h4⟩ := IntOp.andi_eq_one.1 hi
  obtain ⟨h12, h3⟩ := IntOp.andi_eq_one.1 h123
  obtain ⟨h1, h2⟩ := IntOp.andi_eq_one.1 h12
  -- Each signed comparison is an inequality between the signed readings.
  rw [IntOp.cmpi_sge] at h1 h3
  rw [IntOp.cmpi_slt] at h2 h4
  rw [signed_zero] at h1 h3
  rw [signed_512] at h2
  rw [signed_16] at h4
  exact ⟨toNat_lt_of_signed h1 h2 (by omega), toNat_lt_of_signed h3 h4 (by omega)⟩

/-- The same of the tables reshaped to [65536 × 16]. -/
theorem inRange_of_pre [Cert.Pre_any_inputs.Facts] (x0 x1 : IVec ⟨3, ![128, 512, 16]⟩ 32)
    (h : Cert.Pre_any_inputs.fn (F := Ideal) x0 x1 = fun _ => 1#1)
    (sc : (⟨3, ![128, 512, 16]⟩ : Shape).ShapeCasts ⟨2, ![65536, 16]⟩) :
    Cert.Hist.InRange (shapeCast ⟨2, ![65536, 16]⟩ x0 sc) (shapeCast ⟨2, ![65536, 16]⟩ x1 sc) := by
  -- A reshaped table read at (r, l) is the original table read at the index with the same row-major position, the
  -- same index for both tables: the elementwise statement at that index is the claim.
  intro r l
  exact words_of_pre x0 x1 h (Shape.reshapeEquiv sc (ix2 r l))

end Cert.PreRange

end
-- ==== Proof.lean ====
/-
  A per-row histogram of characters, two ways.

  The inputs are two integer tables [128 × 512 × 16]: for each of the 65536 words, the token ids and the position ids
  of its 16 characters. The result is [128 × 512 × 528]: for each word, how many of its non-padding characters carry
  each of the 512 token values (columns 0 … 511) and each of the 16 position values (columns 512 … 527); a character
  whose token is the padding value 0 is counted nowhere.

  The kernel, on blocks of 1024 words, replaces padding ids by the word −1 (which equals no column number) and, one
  character position at a time, compares the id column against the column numbers, turns the comparison into 0 or 1
  and adds it on: sixteen additions of 0 / 1 per entry, from 0. The reference scatters, for every character, the value
  (token ≠ 0) into column `token` and again into column `512 + position` of the word's row of a zero matrix, summing
  collisions. Over the extended reals both are the same finite sum of sixteen terms, each 0 or 1: no rounding, no
  order of summation, no infinities are involved, only 0 + a = a and regrouping of a finite sum.

  They agree where the ids are labels in their ranges, 0 ≤ token < 512 and 0 ≤ position < 16 (the precondition): a
  token in 512 … 527, or a negative id (which the reference's indexing wraps around), would land in a column the kernel
  never counts it in. The range facts are used on the reference's side only: the kernel's block value is the histogram
  for any words.

  Parts: the histogram as one function (Hist); the kernel's stored values at an element (KernelPay), the block one grid
  point leaves (KernelBlock), the 64 blocks covering the result and the reshape after (KernelValue); the reference's
  index and update words (RefWords), the scatter read at an element (LibScatterAddAt, LibScatterAddPairs) and the two
  scatters summed (RefValue); the precondition read as range facts (PreRange).
-/
import proofs.«430972_j17334488007262_2_alg».proof.Defs
import proofs.«430972_j17334488007262_2_alg».proof.Proof.Gen.Kernel
import proofs.«430972_j17334488007262_2_alg».proof.Proof.Gen.Kernel.Skeleton
import proofs.«430972_j17334488007262_2_alg».proof.Proof.Gen.Kernel.Launch
import proofs.«430972_j17334488007262_2_alg».proof.Proof.Gen.Kernel.Points
import proofs.«430972_j17334488007262_2_alg».proof.Proof.Gen.Kernel.Frame
import proofs.«430972_j17334488007262_2_alg».proof.Proof.Gen.KernelIdeal
import proofs.«430972_j17334488007262_2_alg».proof.Proof.Gen.KernelIdeal.Skeleton
import proofs.«430972_j17334488007262_2_alg».proof.Proof.Gen.KernelIdeal.Launch
import proofs.«430972_j17334488007262_2_alg».proof.Proof.Gen.KernelIdeal.Points
import proofs.«430972_j17334488007262_2_alg».proof.Proof.Gen.KernelIdeal.Frame
import proofs.«430972_j17334488007262_2_alg».proof.Proof.Gen.ReferenceIdeal
import proofs.«430972_j17334488007262_2_alg».proof.Proof.Gen.Pre_any_inputs
import proofs.«430972_j17334488007262_2_alg».proof.Proof.Gen.ReferenceIdeal.Run
import proofs.«430972_j17334488007262_2_alg».proof.Proof.Gen.ReferenceIdeal.Read
import proofs.«430972_j17334488007262_2_alg».proof.Proof.KernelValue
import proofs.«430972_j17334488007262_2_alg».proof.Proof.RefValue
import proofs.«430972_j17334488007262_2_alg».proof.Proof.PreRange
import Idealize.ShloMosaic.Adequacy
import Idealize.ShloMosaic.Init

noncomputable section

namespace Cert.Proof

open Idealize.ShloMosaic Idealize.SL.Sem

/-- The kernel as printed runs, and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: it runs, and writes no argument. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the histogram of the two reshaped id tables, reshaped to [128 × 512 × 528]: the kernel's 64 blocks
    tile it, the reference's two scatters sum to it where the ids are in range. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, (hagree c).1, (hagree c).2]
  unfold Cert.ReferenceIdeal.Read.val_main_v39
  rw [Cert.ReferenceIdeal.RefValue.val_main_v38_eq_hist _ _
    (Cert.PreRange.inRange_of_pre _ _ (hpre c) Cert.ReferenceIdeal.Facts₀.shapeCasts_S128x512x16_S65536x16)]
  rfl

theorem claim : Cert.Claim :=
  ⟨Cert.Kernel.Gen.facts, Cert.KernelIdeal.Gen.facts, Cert.ReferenceIdeal.Gen.facts, Cert.Pre_any_inputs.Gen.facts,
    frame_k, frame_ki, frame_ri, trivial, algebraic⟩

end Cert.Proof

end
